-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x7 : Shape := ⟨2, ![1048576, 7]⟩
abbrev S1048576x52 : Shape := ⟨2, ![1048576, 52]⟩
abbrev S1048576 : Shape := ⟨1, ![1048576]⟩
abbrev S_ : Shape := ⟨0, ![]⟩

class Facts : Prop where
  bcast_S_S1048576x7 : S_.BroadcastsInDim S1048576x7 (![] : Fin 0 → Fin S1048576x7.rank)
  reducesTo_S1048576x7_S_d0_1 : S1048576x7.ReducesTo [0, 1] S_
  h_S_ : 0 < S_.numel
  bcast_S_S1048576x52 : S_.BroadcastsInDim S1048576x52 (![] : Fin 0 → Fin S1048576x52.rank)
  reducesTo_S1048576x52_S_d0_1 : S1048576x52.ReducesTo [0, 1] S_
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x7 .f32) (main_arg1 : FVec F S1048576x52 .f32) (main_arg2 : IVec S1048576 32) (main_arg3 : IVec S1048576 32) : IVec S_ 1 :=
  let main_v0 : FVec F S1048576x7 .f32 := Host.absf main_arg0
  let main_cst : FVec F S_ .f32 := constant S_ .f32 0x7F800000#32
  let main_v1 : FVec F S1048576x7 .f32 := broadcastInDim S1048576x7 ![] bcast_S_S1048576x7 main_cst
  let main_v2 : IVec S1048576x7 1 := cmpf .olt main_v0 main_v1
  let main_c : IVec S_ 1 := constantI S_ 1 1#1
  let main_v3 : IVec S_ 1 := (fun x v => Host.reduce IntOp.andi x v reducesTo_S1048576x7_S_d0_1 h_S_) main_v2 main_c
  let main_v4 : FVec F S1048576x52 .f32 := Host.absf main_arg1
  let main_cst_0 : FVec F S_ .f32 := constant S_ .f32 0x7F800000#32
  let main_v5 : FVec F S1048576x52 .f32 := broadcastInDim S1048576x52 ![] bcast_S_S1048576x52 main_cst_0
  let main_v6 : IVec S1048576x52 1 := cmpf .olt main_v4 main_v5
  let main_c_1 : IVec S_ 1 := constantI S_ 1 1#1
  let main_v7 : IVec S_ 1 := (fun x v => Host.reduce IntOp.andi x v reducesTo_S1048576x52_S_d0_1 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg3 main_v9
  let main_c_3 : IVec S_ 32 := constantI S_ 32 52#32
  let main_v11 : IVec S1048576 32 := broadcastInDim S1048576 ![] bcast_S_S1048576 main_c_3
  let main_v12 : IVec S1048576 1 := cmpi .slt main_arg3 main_v11
  let main_v13 : IVec S1048576 1 := andi main_v10 main_v12
  let main_c_4 : IVec S_ 1 := constantI S_ 1 1#1
  let main_v14 : IVec S_ 1 := (fun x v => Host.reduce IntOp.andi x v reducesTo_S1048576_S_d0 h_S_) main_v13 main_c_4
  let main_v15 : IVec S_ 1 := andi main_v8 main_v14
  main_v15
-- ==== Kernel.lean ====
abbrev S1048576x7 : Shape := ⟨2, ![1048576, 7]⟩
abbrev S1048576x52 : Shape := ⟨2, ![1048576, 52]⟩
abbrev S1048576 : Shape := ⟨1, ![1048576]⟩
abbrev S52x7 : Shape := ⟨2, ![52, 7]⟩
abbrev S_ : Shape := ⟨0, ![]⟩
abbrev S1x1048576 : Shape := ⟨2, ![1, 1048576]⟩
abbrev S16x128 : Shape := ⟨2, ![16, 128]⟩
abbrev S16384x7 : Shape := ⟨2, ![16384, 7]⟩
abbrev S16384x52 : Shape := ⟨2, ![16384, 52]⟩
abbrev S1x16384 : Shape := ⟨2, ![1, 16384]⟩
abbrev S8x128 : Shape := ⟨2, ![8, 128]⟩
abbrev S7x16384 : Shape := ⟨2, ![7, 16384]⟩
abbrev S52x16384 : Shape := ⟨2, ![52, 16384]⟩
abbrev S16384 : Shape := ⟨1, ![16384]⟩
abbrev S1x1x16384 : Shape := ⟨3, ![1, 1, 16384]⟩
abbrev S1 : Shape := ⟨1, ![1]⟩
abbrev S1x1x1 : Shape := ⟨3, ![1, 1, 1]⟩
abbrev S2x8x128 : Shape := ⟨3, ![2, 8, 128]⟩
abbrev S2x1x1 : Shape := ⟨3, ![2, 1, 1]⟩
abbrev S2 : Shape := ⟨1, ![2]⟩

abbrev nBuf : Space → Nat
  | .hbm => 22
  | .vmem => 10
  | .smem => 0
  | _ => 0

abbrev bufTy : (tb : Table) → Fin (tcTables nBuf tb) → BufTy
  | .hbm, ⟨0, _⟩ => ⟨S1048576x7, .f32⟩
  | .hbm, ⟨1, _⟩ => ⟨S1048576x52, .f32⟩
  | .hbm, ⟨2, _⟩ => ⟨S1048576, .i32⟩
  | .hbm, ⟨3, _⟩ => ⟨S1048576, .i32⟩
  | .hbm, ⟨4, _⟩ => ⟨S52x7, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1x1048576, .i32⟩
  | .hbm, ⟨14, _⟩ => ⟨S16x128, .f32⟩
  | .hbm, ⟨15, _⟩ => ⟨S2x8x128, .f32⟩
  | .hbm, ⟨16, _⟩ => ⟨S2x1x1, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S16384x7, .f32⟩
  | .local _ .vmem, ⟨1, _⟩ => ⟨S16384x7, .f32⟩
  | .local _ .vmem, ⟨2, _⟩ => ⟨S16384x52, .f32⟩
  | .local _ .vmem, ⟨3, _⟩ => ⟨S16384x52, .f32⟩
  | .local _ .vmem, ⟨4, _⟩ => ⟨S1x16384, .i32⟩
  | .local _ .vmem, ⟨5, _⟩ => ⟨S1x16384, .i32⟩
  | .local _ .vmem, ⟨6, _⟩ => ⟨S52x7, .f32⟩
  | .local _ .vmem, ⟨7, _⟩ => ⟨S8x128, .f32⟩
  | .local _ .vmem, ⟨8, _⟩ => ⟨S8x128, .f32⟩
  | .local _ .vmem, ⟨9, _⟩ => ⟨S1x16384, .f32⟩
  | _, _ => ⟨S1048576x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v47 : BitVec 1 := Scalar.cmpi .eq arg1 c31_i32
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16384x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x52 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S52x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1048576 : S_.BroadcastsInDim S1048576 (![] : Fin 0 → Fin S1048576.rank)
  shapeCasts_S1048576_S1x1048576 : S1048576.ShapeCasts S1x1048576
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S16384x7_S16384x7_0_0 : ∀ a, (![0, 0] : Fin 2 → Nat) a + S16384x7.size a ≤ S16384x7.size a
  h_S16384x7 : 0 < S16384x7.numel
  inb_S16384x52_S16384x52_0_0 : ∀ a, (![0, 0] : Fin 2 → Nat) a + S16384x52.size a ≤ S16384x52.size a
  h_S16384x52 : 0 < S16384x52.numel
  transposes_S16384x7_p1_0_S7x16384 : S16384x7.Transposes [1, 0] S7x16384
  transposes_S16384x52_p1_0_S52x16384 : S16384x52.Transposes [1, 0] S52x16384
  inb_S52x7_S52x7_0_0 : ∀ a, (![0, 0] : Fin 2 → Nat) a + S52x7.size a ≤ S52x7.size a
  h_S52x7 : 0 < S52x7.numel
  reduces_S52x16384_S16384 : S52x16384.Reduces [0] S16384
  shapeCasts_S16384_S1x16384 : S16384.ShapeCasts S1x16384
  reduces_S7x16384_S16384 : S7x16384.Reduces [0] S16384
  iota_S52x16384_d0_w32 : S52x16384.Iotas .tc 32 [0]
  broadcasts_S1x16384_S52x16384 : S1x16384.Broadcasts S52x16384
  shapeCasts_S1x16384_S1x1x16384 : S1x16384.ShapeCasts S1x1x16384
  reduces_S1x1x16384_S1 : S1x1x16384.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  shapeCasts_S16x128_S2x8x128 : S16x128.ShapeCasts S2x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S52x7_S7x16384_S52x16384_1_0_0_1_n_n_wf : DotDims.WF S52x7 S7x16384 S52x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x7.size a ≤ S1048576x7.size a
  hwx0_0 : ∀ i : grid0.Coords, EltTy.bits .f32 = 32 ∨ (Rect.block (s := S1048576x7) S16384x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x52.size a ≤ S1048576x52.size a
  hwx0_1 : ∀ i : grid0.Coords, EltTy.bits .f32 = 32 ∨ (Rect.block (s := S1048576x52) S16384x52.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1048576.size a
  hwx0_2 : ∀ i : grid0.Coords, EltTy.bits .i32 = 32 ∨ (Rect.block (s := S1x1048576) S1x16384.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S52x7.size a ≤ S52x7.size a
  hwx0_3 : ∀ i : grid0.Coords, EltTy.bits .f32 = 32 ∨ (Rect.block (s := S52x7) S52x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S52x7_S7x16384_S52x16384_1_0_0_1_n_n : DotDims S52x7 S7x16384 S52x16384 where
  lhsContracting := [1]
  rhsContracting := [0]
  lhsNonContracting := [0]
  rhsNonContracting := [1]
  lhsBatch := []
  rhsBatch := []
  wf := dot_S52x7_S7x16384_S52x16384_1_0_0_1_n_n_wf

abbrev win0_0 : Pipeline.Window sig grid0 :=
  Pipeline.Window.ofSpec (Memref.whole main_arg0) S16384x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x52.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S52x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1048576x7 : Shape := ⟨2, ![1048576, 7]⟩
abbrev S1048576x52 : Shape := ⟨2, ![1048576, 52]⟩
abbrev S1048576 : Shape := ⟨1, ![1048576]⟩
abbrev S59x59 : Shape := ⟨2, ![59, 59]⟩
abbrev S_ : Shape := ⟨0, ![]⟩
abbrev S1048576x59 : Shape := ⟨2, ![1048576, 59]⟩
abbrev S59x1048576 : Shape := ⟨2, ![59, 1048576]⟩
abbrev S1048576x1 : Shape := ⟨2, ![1048576, 1]⟩

abbrev nBuf : Space → Nat
  | .hbm => 54
  | .vmem => 0
  | .smem => 0
  | _ => 0

abbrev bufTy : (tb : Table) → Fin (tcTables nBuf tb) → BufTy
  | .hbm, ⟨0, _⟩ => ⟨S1048576x7, .f32⟩
  | .hbm, ⟨1, _⟩ => ⟨S1048576x52, .f32⟩
  | .hbm, ⟨2, _⟩ => ⟨S1048576, .i32⟩
  | .hbm, ⟨3, _⟩ => ⟨S1048576, .i32⟩
  | .hbm, ⟨4, _⟩ => ⟨S59x59, .f32⟩
  | .hbm, ⟨5, _⟩ => ⟨S1048576x7, .f32⟩
  | .hbm, ⟨6, _⟩ => ⟨S1048576x7, .f32⟩
  | .hbm, ⟨7, _⟩ => ⟨S_, .f32⟩
  | .hbm, ⟨8, _⟩ => ⟨S1048576x7, .f32⟩
  | .hbm, ⟨9, _⟩ => ⟨S1048576x7, .f32⟩
  | .hbm, ⟨10, _⟩ => ⟨S_, .f32⟩
  | .hbm, ⟨11, _⟩ => ⟨S1048576x7, .f32⟩
  | .hbm, ⟨12, _⟩ => ⟨S1048576x7, .f32⟩
  | .hbm, ⟨13, _⟩ => ⟨S1048576x52, .f32⟩
  | .hbm, ⟨14, _⟩ => ⟨S1048576x52, .f32⟩
  | .hbm, ⟨15, _⟩ => ⟨S_, .f32⟩
  | .hbm, ⟨16, _⟩ => ⟨S1048576x52, .f32⟩
  | .hbm, ⟨17, _⟩ => ⟨S1048576x52, .f32⟩
  | .hbm, ⟨18, _⟩ => ⟨S_, .f32⟩
  | .hbm, ⟨19, _⟩ => ⟨S1048576x52, .f32⟩
  | .hbm, ⟨20, _⟩ => ⟨S1048576x52, .f32⟩
  | .hbm, ⟨21, _⟩ => ⟨S1048576x59, .f32⟩
  | .hbm, ⟨22, _⟩ => ⟨S59x1048576, .f32⟩
  | .hbm, ⟨23, _⟩ => ⟨S59x1048576, .f32⟩
  | .hbm, ⟨24, _⟩ => ⟨S59x1048576, .f32⟩
  | .hbm, ⟨25, _⟩ => ⟨S_, .f32⟩
  | .hbm, ⟨26, _⟩ => ⟨S1048576, .f32⟩
  | .hbm, ⟨27, _⟩ => ⟨S_, .i32⟩
  | .hbm, ⟨28, _⟩ => ⟨S1048576, .i32⟩
  | .hbm, ⟨29, _⟩ => ⟨S1048576, .i32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S59x1048576, .f32⟩
  | .hbm, ⟨39, _⟩ => ⟨S_, .f32⟩
  | .hbm, ⟨40, _⟩ => ⟨S59x1048576, .f32⟩
  | .hbm, ⟨41, _⟩ => ⟨S59x1048576, .i1⟩
  | .hbm, ⟨42, _⟩ => ⟨S_, .f32⟩
  | .hbm, ⟨43, _⟩ => ⟨S59x1048576, .f32⟩
  | .hbm, ⟨44, _⟩ => ⟨S59x1048576, .f32⟩
  | .hbm, ⟨45, _⟩ => ⟨S_, .f32⟩
  | .hbm, ⟨46, _⟩ => ⟨S1048576, .f32⟩
  | .hbm, ⟨47, _⟩ => ⟨S1048576, .f32⟩
  | .hbm, ⟨48, _⟩ => ⟨S1048576, .f32⟩
  | .hbm, ⟨49, _⟩ => ⟨S1048576, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S1048576x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S1048576x7 : S_.BroadcastsInDim S1048576x7 (![] : Fin 0 → Fin S1048576x7.rank)
  bcast_S_S1048576x52 : S_.BroadcastsInDim S1048576x52 (![] : Fin 0 → Fin S1048576x52.rank)
  concatenates_S1048576x7_S1048576x52_S1048576x59_d1 : Shape.Concatenates [S1048576x7, S1048576x52] S1048576x59 1
  transposes_S1048576x59_S59x1048576_1_0 : S1048576x59.Transposes [1, 0] S59x1048576
  reducesTo_S59x1048576_S1048576_d0 : S59x1048576.ReducesTo [0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S59x1048576 : S_.BroadcastsInDim S59x1048576 (![] : Fin 0 → Fin S59x1048576.rank)
  reducesTo_S1048576_S_d0 : S1048576.ReducesTo [0] S_
  dot_S59x59_S59x1048576_S59x1048576_1_0_0_1_n_n_wf : DotDims.WF S59x59 S59x1048576 S59x1048576 [1] [0] [0] [1] [] []
  gather_S59x59_S1048576x1_S59x1048576_0_1_n_n_1_1_591_wf : GatherDims.WF S59x59 S1048576x1 S59x1048576 [0] [1] [] [1] [] 1 ![59, 1]

variable [Facts₀]

def dot_S59x59_S59x1048576_S59x1048576_1_0_0_1_n_n : DotDims S59x59 S59x1048576 S59x1048576 where
  lhsContracting := [1]
  rhsContracting := [0]
  lhsNonContracting := [0]
  rhsNonContracting := [1]
  lhsBatch := []
  rhsBatch := []
  wf := dot_S59x59_S59x1048576_S59x1048576_1_0_0_1_n_n_wf
def gather_S59x59_S1048576x1_S59x1048576_0_1_n_n_1_1_591 : GatherDims S59x59 S1048576x1 S59x1048576 where
  offsetDims := [0]
  collapsedSliceDims := [1]
  operandBatchingDims := []
  startIndicesBatchingDims := []
  startIndexMap := [1]
  indexVectorDim := 1
  sliceSizes := ![59, 1]
  wf := gather_S59x59_S1048576x1_S59x1048576_0_1_n_n_1_1_591_wf

class Facts : Prop extends Facts₀ where

variable [Facts]
-- ==== Proof.Spec.lean ====
/-
  The mathematics of the claim, with no program in sight.

  A sample has seven body gates `x j` and fifty-two action gates `y a`; every action `a` belongs to one of
  the seven body classes, `coarse a` (consecutive runs of actions: 0–4, 5–10, 11–23, 24–31, 32–37, 38–47, 48–51).
  With `σ t = 1 / (1 + e^(−t))` the logistic function, the action's logit is `σ (y a) + σ (x (coarse a))`, the
  partition sum is `Z = Σ_a exp (logit a) + Σ_j exp (σ (x j))` (the fifty-two action states and the seven body
  states), and the sample's loss at label `l` is `log Z − logit l`, the negative log-likelihood of the labelled action.
  The result of both programs is the mean of that loss over the 1048576 samples.
-/
import Idealize.ShloMosaic.PureOps.Ideal
import Idealize.ShloMosaic.Lib.ValueIdx

noncomputable section

open scoped BigOperators

namespace Cert.Spec

open Idealize.ShloMosaic Idealize.ShloMosaic.ValueIdx

/-- The body class of action `a`: seven consecutive runs of the fifty-two actions. -/
def coarse (a : Fin 52) : Fin 7 :=
  if a.val ≤ 4 then 0 else if a.val ≤ 10 then 1 else if a.val ≤ 23 then 2 else if a.val ≤ 31 then 3
  else if a.val ≤ 37 then 4 else if a.val ≤ 47 then 5 else 6

/-- The logistic function. -/
def sigm (t : ℝ) : ℝ := 1 / (1 + Real.exp (-t))

/-- An action's logit: its own gate plus its body class's gate. -/
def logit (x : Fin 7 → ℝ) (y : Fin 52 → ℝ) (a : Fin 52) : ℝ := sigm (y a) + sigm (x (coarse a))

/-- The partition sum over the fifty-two action states and the seven body states. -/
def partition (x : Fin 7 → ℝ) (y : Fin 52 → ℝ) : ℝ :=
  (∑ a : Fin 52, Real.exp (logit x y a)) + ∑ j : Fin 7, Real.exp (sigm (x j))

/-- A sample's loss at label `l`: the negative log-likelihood of the labelled action. -/
def loss (x : Fin 7 → ℝ) (y : Fin 52 → ℝ) (l : Fin 52) : ℝ := Real.log (partition x y) - logit x y l

/-- The sum of the losses over all samples. -/
def total (xr : Fin 1048576 → Fin 7 → ℝ) (yr : Fin 1048576 → Fin 52 → ℝ) (lab : Fin 1048576 → Fin 52) : ℝ :=
  ∑ b : Fin 1048576, loss (xr b) (yr b) (lab b)

/-- The result both programs end with: the total over the sample count 2^20 (the word `0x49800000`), as the host's quotient
    of two scalars. -/
def result (xr : Fin 1048576 → Fin 7 → ℝ) (yr : Fin 1048576 → Fin 52 → ℝ) (lab : Fin 1048576 → Fin 52) :
    FVec Ideal (⟨0, ![]⟩ : Shape) .f32 :=
  Host.divf (fun _ => ((total xr yr lab : ℝ) : EReal)) (constant (⟨0, ![]⟩ : Shape) .f32 0x49800000#32)

/-- The argument arrays hold real numbers and labels in range: `a0` the body gates, `a1` the action gates, `a3` the
    action labels, read through `xr`, `yr`, `lab`. -/
structure Reads (a0 : FVec Ideal (⟨2, ![1048576, 7]⟩ : Shape) .f32) (a1 : FVec Ideal (⟨2, ![1048576, 52]⟩ : Shape) .f32)
    (a3 : IVec (⟨1, ![1048576]⟩ : Shape) 32)
    (xr : Fin 1048576 → Fin 7 → ℝ) (yr : Fin 1048576 → Fin 52 → ℝ) (lab : Fin 1048576 → Fin 52) : Prop where
  body : ∀ (b : Fin 1048576) (j : Fin 7), a0 (ix2 b j) = ((xr b j : ℝ) : EReal)
  action : ∀ (b : Fin 1048576) (a : Fin 52), a1 (ix2 b a) = ((yr b a : ℝ) : EReal)
  label : ∀ b : Fin 1048576, a3 (ix1 b) = BitVec.ofNat 32 (lab b).val

/-- The logistic function lies strictly between 0 and 1. -/
theorem sigm_pos (t : ℝ) : 0 < sigm t := by
  unfold sigm; positivity

/-- The partition sum is positive. -/
theorem partition_pos (x : Fin 7 → ℝ) (y : Fin 52 → ℝ) : 0 < partition x y := by
  unfold partition
  have h1 : 0 ≤ ∑ a : Fin 52, Real.exp (logit x y a) := Finset.sum_nonneg fun a _ => (Real.exp_pos _).le
  have h2 : 0 < ∑ j : Fin 7, Real.exp (sigm (x j)) :=
    Finset.sum_pos (fun j _ => Real.exp_pos _) ⟨0, Finset.mem_univ _⟩
  linarith

end Cert.Spec

end
-- ==== Proof.Pre.lean ====
/-
  The precondition read as facts: every gate entry is a real number and every action label lies in 0 … 51.
-/
import proofs.«400140_j10694468567626_3_alg».proof.Pre_finite_inputs
import proofs.«400140_j10694468567626_3_alg».proof.Proof.Gen.Pre_finite_inputs
import proofs.«400140_j10694468567626_3_alg».proof.Proof.Spec
import Idealize.ShloMosaic.Lib.ReduceAll
import Idealize.ShloMosaic.Lib.StableHlo.Predicate

noncomputable section

namespace Cert.Pre_finite_inputs.Decode

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value is below +∞ is a real number. -/
theorem real_of_abs_lt (x : Ideal .f32)
    (h : FloatOps.cmpf (F := Ideal) .olt (FloatOps.hostAbsf x) (FloatOps.ofBits (F := Ideal) .f32 0x7F800000#32) = 1#1) :
    x = ((EReal.toReal x : ℝ) : EReal) := by
  have h' : BitVec.ofBool (decide (max x (-x) < Ideal.ofBits .f32 0x7F800000#32)) = 1#1 := h
  rw [inf_word, StableHlo.Predicate.ofBool_eq_one_iff, decide_eq_true_eq] at h'
  have ht : x ≠ ⊤ := by
    rintro rfl
    simp at h'
  have hb : x ≠ ⊥ := by
    rintro rfl
    simp at h'
  exact (EReal.coe_toReal ht hb).symm

/-- A 32-bit word that is at least 0 and below 52 as a signed number has a value below 52. -/
theorem label_lt (w : BitVec 32) (h0 : IntOp.cmpi .sge w 0#32 = 1#1) (h1 : IntOp.cmpi .slt w 52#32 = 1#1) : w.toNat < 52 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e52 : (52#32 : BitVec 32).toInt = 52 := by decide
  rw [e0] at h0
  rw [e52] at h1
  rw [BitVec.toInt_eq_toNat_cond] at h0 h1
  have := w.isLt
  split at h0 <;> omega

/-- Where the precondition holds, the gate arrays are arrays of real numbers and the labels index the fifty-two actions. -/
theorem reads_of_pre (a0 : FVec Ideal S1048576x7 .f32) (a1 : FVec Ideal S1048576x52 .f32) (a2 a3 : IVec S1048576 32)
    (h : Cert.Pre_finite_inputs.fn (F := Ideal) a0 a1 a2 a3 = fun _ => 1#1) :
    ∃ (xr : Fin 1048576 → Fin 7 → ℝ) (yr : Fin 1048576 → Fin 52 → ℝ) (lab : Fin 1048576 → Fin 52),
      Cert.Spec.Reads a0 a1 a3 xr yr lab := by
  -- the predicate is a conjunction of three "for all elements" statements
  have h0 := congrFun h ix0
  dsimp only [Cert.Pre_finite_inputs.fn] at h0
  obtain ⟨h8, h14⟩ := IntOp.andi_eq_one.1 h0
  obtain ⟨h3, h7⟩ := IntOp.andi_eq_one.1 h8
  -- each conjunct holds at every element of its array
  have e0 := fun i => Host.reduce_andi_all _ _ _ _ _ h3 i
  have e1 := fun i => Host.reduce_andi_all _ _ _ _ _ h7 i
  have e3 := fun i => Host.reduce_andi_all _ _ _ _ _ h14 i
  -- a label is at least 0 and below 52 as a signed word, so its value is below 52
  have hl : ∀ b : Fin 1048576, (a3 (ix1 b)).toNat < 52 := fun b =>
    label_lt (a3 (ix1 b)) (IntOp.andi_eq_one.1 (e3 (ix1 b))).1 (IntOp.andi_eq_one.1 (e3 (ix1 b))).2
  -- an entry of absolute value below +∞ is neither +∞ nor −∞: it is its own real part
  refine ⟨fun b j => (a0 (ix2 b j)).toReal, fun b a => (a1 (ix2 b a)).toReal, fun b => ⟨(a3 (ix1 b)).toNat, hl b⟩, ?_, ?_, ?_⟩
  · exact fun b j => real_of_abs_lt (a0 (ix2 b j)) (e0 (ix2 b j))
  · exact fun b a => real_of_abs_lt (a1 (ix2 b a)) (e1 (ix2 b a))
  · intro b
    apply BitVec.eq_of_toNat_eq
    rw [BitVec.toNat_ofNat]
    exact (Nat.mod_eq_of_lt (a3 (ix1 b)).isLt).symm

end Cert.Pre_finite_inputs.Decode

end
-- ==== Proof.KPieces.lean ====
/-
  What each control case of the body leaves behind, as values of the blocks it was given.
  A point's update of the accumulator is `step`: the accumulator it found plus the tile's per-lane losses. The first point
  of a chunk finds the zero row (it has just stored it); a later point finds what the point before left; the last point
  of a chunk moreover writes the chunk's total, the sum of the updated accumulator over its lanes, to every entry of the
  output block.
-/
import proofs.«400140_j10694468567626_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One point's update of the accumulator `xs` from the tile's blocks: `xs` plus, lane by lane, the log of the partition sum
    minus the labelled action's logit. -/
def step (x0 : Vec F S16384x7 .f32) (x1 : Vec F S16384x52 .f32) (x2 : Vec F S1x16384 .i32) (x3 : Vec F S52x7 .f32)
    (xs : Vec F S1x16384 .f32) : Vec F S1x16384 .f32 :=
  k0_pay1 (k0_pay5 x0 x1 x3) (k0_pay6 x0 x1 x3) (k0_pay7 (F := F) x2) (Scalar.ofBits .f32 0x00000000#32) xs

/-- The first point of a chunk: the accumulator is reset, then updated. -/
theorem scratch_A (c : Dev nD) (i : grid0.Coords) (arg2 : Memref sig .tc .vmem S16384x7 .f32) (harg2 : arg2.IsWhole) (arg3 : Memref sig .tc .vmem S16384x52 .f32) (harg3 : arg3.IsWhole) (arg4 : Memref sig .tc .vmem S1x16384 .i32) (harg4 : arg4.IsWhole) (arg5 : Memref sig .tc .vmem S52x7 .f32) (harg5 : arg5.IsWhole) (arg6 : Memref sig .tc .vmem S8x128 .f32) (harg6 : arg6.IsWhole) (arg7 : Memref sig .tc .vmem S1x16384 .f32) (harg7 : arg7.IsWhole) (hc0 : cond0_0 i) (hc1 : ¬cond0_1 i)
    (x0 : Vec F S16384x7 .f32) (x1 : Vec F S16384x52 .f32) (x2 : Vec F S1x16384 .i32) (x3 : Vec F S52x7 .f32) :
    sout0_A_0 c i arg2 harg2 arg3 harg3 arg4 harg4 arg5 harg5 arg6 harg6 arg7 harg7 hc0 hc1 x0 x1 x2 x3 = step x0 x1 x2 x3 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x16384) hz, View.readCov_unit_zero (S := S1x16384) _ hz]
  unfold step
  simp only [View.readAt_eq_ld, harg2.read_unread, harg3.read_unread, harg4.read_unread, harg5.read_unread,
    View.ld_unit_zero (S := S16384x7) hz, View.ld_unit_zero (S := S16384x52) hz, View.ld_unit_zero (S := S1x16384) hz,
    View.ld_unit_zero (S := S52x7) hz]

/-- A middle point: the accumulator the point before left, updated. -/
theorem scratch_B (c : Dev nD) (i : grid0.Coords) (arg2 : Memref sig .tc .vmem S16384x7 .f32) (harg2 : arg2.IsWhole) (arg3 : Memref sig .tc .vmem S16384x52 .f32) (harg3 : arg3.IsWhole) (arg4 : Memref sig .tc .vmem S1x16384 .i32) (harg4 : arg4.IsWhole) (arg5 : Memref sig .tc .vmem S52x7 .f32) (harg5 : arg5.IsWhole) (arg6 : Memref sig .tc .vmem S8x128 .f32) (harg6 : arg6.IsWhole) (arg7 : Memref sig .tc .vmem S1x16384 .f32) (harg7 : arg7.IsWhole) (hc0 : ¬cond0_0 i) (hc1 : ¬cond0_1 i)
    (x0 : Vec F S16384x7 .f32) (x1 : Vec F S16384x52 .f32) (x2 : Vec F S1x16384 .i32) (x3 : Vec F S52x7 .f32) (xs0 : Vec F S1x16384 .f32) :
    sout0_B_0 c i arg2 harg2 arg3 harg3 arg4 harg4 arg5 harg5 arg6 harg6 arg7 harg7 hc0 hc1 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  unfold step
  simp only [View.readAt_eq_ld, harg2.read_unread, harg3.read_unread, harg4.read_unread, harg5.read_unread, harg7.read_unread,
    View.ld_unit_zero (S := S16384x7) hz, View.ld_unit_zero (S := S16384x52) hz, View.ld_unit_zero (S := S1x16384) hz,
    View.ld_unit_zero (S := S52x7) hz]

/-- The last point of a chunk: the accumulator is updated as at a middle point … -/
theorem scratch_C (c : Dev nD) (i : grid0.Coords) (arg2 : Memref sig .tc .vmem S16384x7 .f32) (harg2 : arg2.IsWhole) (arg3 : Memref sig .tc .vmem S16384x52 .f32) (harg3 : arg3.IsWhole) (arg4 : Memref sig .tc .vmem S1x16384 .i32) (harg4 : arg4.IsWhole) (arg5 : Memref sig .tc .vmem S52x7 .f32) (harg5 : arg5.IsWhole) (arg6 : Memref sig .tc .vmem S8x128 .f32) (harg6 : arg6.IsWhole) (arg7 : Memref sig .tc .vmem S1x16384 .f32) (harg7 : arg7.IsWhole) (hc0 : ¬cond0_0 i) (hc1 : cond0_1 i)
    (x0 : Vec F S16384x7 .f32) (x1 : Vec F S16384x52 .f32) (x2 : Vec F S1x16384 .i32) (x3 : Vec F S52x7 .f32) (xs0 : Vec F S1x16384 .f32) :
    sout0_C_0 c i arg2 harg2 arg3 harg3 arg4 harg4 arg5 harg5 arg6 harg6 arg7 harg7 hc0 hc1 x0 x1 x2 x3 xs0 = step x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  unfold step
  simp only [View.readAt_eq_ld, harg2.read_unread, harg3.read_unread, harg4.read_unread, harg5.read_unread, harg7.read_unread,
    View.ld_unit_zero (S := S16384x7) hz, View.ld_unit_zero (S := S16384x52) hz, View.ld_unit_zero (S := S1x16384) hz,
    View.ld_unit_zero (S := S52x7) hz]

/-- … and the output block gets the chunk's total: the updated accumulator summed over its lanes, in every entry. -/
theorem out_C (c : Dev nD) (i : grid0.Coords) (arg2 : Memref sig .tc .vmem S16384x7 .f32) (harg2 : arg2.IsWhole) (arg3 : Memref sig .tc .vmem S16384x52 .f32) (harg3 : arg3.IsWhole) (arg4 : Memref sig .tc .vmem S1x16384 .i32) (harg4 : arg4.IsWhole) (arg5 : Memref sig .tc .vmem S52x7 .f32) (harg5 : arg5.IsWhole) (arg6 : Memref sig .tc .vmem S8x128 .f32) (harg6 : arg6.IsWhole) (arg7 : Memref sig .tc .vmem S1x16384 .f32) (harg7 : arg7.IsWhole) (hc0 : ¬cond0_0 i) (hc1 : cond0_1 i)
    (x0 : Vec F S16384x7 .f32) (x1 : Vec F S16384x52 .f32) (x2 : Vec F S1x16384 .i32) (x3 : Vec F S52x7 .f32) (xs0 : Vec F S1x16384 .f32) :
    out0_C_4 c i arg2 harg2 arg3 harg3 arg4 harg4 arg5 harg5 arg6 harg6 arg7 harg7 hc0 hc1 x0 x1 x2 x3 xs0 = k0_pay2 (step x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1x16384) _ hz]
  unfold step
  simp only [View.readAt_eq_ld, harg2.read_unread, harg3.read_unread, harg4.read_unread, harg5.read_unread, harg7.read_unread,
    View.ld_unit_zero (S := S16384x7) hz, View.ld_unit_zero (S := S16384x52) hz, View.ld_unit_zero (S := S1x16384) hz,
    View.ld_unit_zero (S := S52x7) hz]

end Cert.KernelIdeal.Pieces

end
-- ==== Proof.KInv.lean ====
/-
  What the accumulator and the output block hold after a grid point, case by case, over the point's input blocks.
  The sixty-four points are two chunks of thirty-two: a point's position in its chunk is `t % 32`; position 0 resets the
  accumulator, position 31 writes the chunk's total.
-/
import proofs.«400140_j10694468567626_3_alg».proof.Proof.KPieces

noncomputable section

open Idealize.ShloMosaic Idealize.ShloMosaic.TcCoe Idealize.SL.Sem

namespace Cert.KernelIdeal.Points

open Cert.KernelIdeal Cert.KernelIdeal.Gen Cert.KernelIdeal.Pieces

variable {F : FTy → Type} [FloatOps F]
variable (m : (ℓ : Loc nD τ sig) → Buf (Elt F) ℓ)

/-- The input blocks of point `t`, by their literal types: the tile's body gates, action gates, labels, and the class table. -/
abbrev blk0 (c : Dev nD) (t : Fin cfg0.N) : Vec F S16384x7 .f32 := iblk m c 0 t
abbrev blk1 (c : Dev nD) (t : Fin cfg0.N) : Vec F S16384x52 .f32 := iblk m c 1 t
abbrev blk2 (c : Dev nD) (t : Fin cfg0.N) : Vec F S1x16384 .i32 := iblk m c 2 t
abbrev blk3 (c : Dev nD) (t : Fin cfg0.N) : Vec F S52x7 .f32 := iblk m c 3 t

/-- The accumulator after point `n`. -/
abbrev accAfter (c : Dev nD) (n : ℕ) (hn : n < cfg0.N) : Vec F S1x16384 .f32 := (outsAt0 m c n hn).2
/-- The output block after point `n`. -/
abbrev outAfter (c : Dev nD) (n : ℕ) (hn : n < cfg0.N) : Vec F S8x128 .f32 := (outsAt0 m c n hn).1

/-- At a chunk's first point the accumulator ends at the update of the zero row. -/
theorem acc_first (c : Dev nD) (t : Fin cfg0.N) (h0 : t.val % 32 = 0) :
    accAfter m c t.val t.isLt = step (blk0 m c t) (blk1 m c t) (blk2 m c t) (blk3 m c t) (k0_pay3 (F := F)) := by
  have h1 : ¬t.val % 32 = 31 := by omega
  unfold accAfter
  rw [outsAt0_A m c t h0 h1]; dsimp only
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- At any later point it ends at the update of what the point before left. -/
theorem acc_later (c : Dev nD) (t : Fin cfg0.N) (h0 : ¬t.val % 32 = 0) :
    accAfter m c t.val t.isLt
      = step (blk0 m c t) (blk1 m c t) (blk2 m c t) (blk3 m c t)
          (accAfter m c (t.val - 1) (Nat.lt_of_le_of_lt (Nat.sub_le _ _) t.isLt)) := by
  unfold accAfter
  by_cases h1 : t.val % 32 = 31
  · rw [outsAt0_C m c t h0 h1]; dsimp only
    exact scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2
  · rw [outsAt0_B m c t h0 h1]; dsimp only
    exact scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2

/-- At a chunk's last point the output block holds the accumulator's total over its lanes, in every entry. -/
theorem out_last (c : Dev nD) (t : Fin cfg0.N) (h1 : t.val % 32 = 31) :
    outAfter m c t.val t.isLt = k0_pay2 (accAfter m c t.val t.isLt) := by
  have h0 : ¬t.val % 32 = 0 := by omega
  unfold outAfter accAfter
  rw [outsAt0_C m c t h0 h1]; dsimp only
  rw [scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2]
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2

end Cert.KernelIdeal.Points

end
-- ==== Proof.KBlocks.lean ====
/-
  The input blocks of a grid point, entry by entry, as entries of the arrays the region finds.
  Point `t` of the sixty-four reads tile `t`: rows `16384·t … 16384·t + 16383` of the two gate arrays and the same
  stretch of the label row; the class table is read whole at every point. The label row is the action labels clamped
  into 0 … 51 and laid out as one row; the class table is the literal 52 × 7 indicator table.
-/
import proofs.«400140_j10694468567626_3_alg».proof.Proof.KInv
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen Cert.KernelIdeal.Pieces Cert.KernelIdeal.Points

variable {F : FTy → Type} [FloatOps F]
variable (m : (ℓ : Loc nD τ sig) → Buf (Elt F) ℓ)

/-- The sample at lane `q` of tile `t`. -/
abbrev row (t : Fin cfg0.N) (q : Fin 16384) : Fin 1048576 :=
  ⟨t.val * 16384 + q.val, by have h := lt_of_lt_of_eq t.isLt (show cfg0.N = 64 from N_0); have := q.isLt; omega⟩

/-- The printed index maps over the grid: tile `t` along the sample axis, block 0 along the other. -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)
theorem idx_facts2 : ∀ t : Fin cfg0.N, win0_2.index t (0 : Fin 2) = 0 ∧ win0_2.index t (1 : Fin 2) = t.val :=
  (by decide +kernel : ∀ t : Fin grid0.N, _)
theorem idx_facts3 : ∀ t : Fin cfg0.N, win0_3.index t (0 : Fin 2) = 0 ∧ win0_3.index t (1 : Fin 2) = 0 :=
  (by decide +kernel : ∀ t : Fin grid0.N, _)

/-- Tile `t`'s body gates are rows `16384·t + q` of the body-gate array. -/
theorem blk0_apply (c : Dev nD) (t : Fin cfg0.N) (q : Fin 16384) (j : Fin 7) :
    blk0 m c t (ix2 q j) = (V m c main_arg0 : FVec F S1048576x7 .f32) (ix2 (row t q) j) := by
  unfold blk0 iblk
  rw [View.read_apply]
  show V m c main_arg0 _ = V m c main_arg0 _
  refine congrArg (V m c main_arg0) ?_
  funext a; apply Fin.ext
  match a with
  | ⟨0, _⟩ => show win0_0.index t 0 * 16384 + 1 * q.val = t.val * 16384 + q.val; rw [(idx_facts0 t).1]; omega
  | ⟨1, _⟩ => show win0_0.index t 1 * 7 + 1 * j.val = j.val; rw [(idx_facts0 t).2]; omega

/-- Tile `t`'s action gates are rows `16384·t + q` of the action-gate array. -/
theorem blk1_apply (c : Dev nD) (t : Fin cfg0.N) (q : Fin 16384) (a : Fin 52) :
    blk1 m c t (ix2 q a) = (V m c main_arg1 : FVec F S1048576x52 .f32) (ix2 (row t q) a) := by
  unfold blk1 iblk
  rw [View.read_apply]
  show V m c main_arg1 _ = V m c main_arg1 _
  refine congrArg (V m c main_arg1) ?_
  funext d; apply Fin.ext
  match d with
  | ⟨0, _⟩ => show win0_1.index t 0 * 16384 + 1 * q.val = t.val * 16384 + q.val; rw [(idx_facts1 t).1]; omega
  | ⟨1, _⟩ => show win0_1.index t 1 * 52 + 1 * a.val = a.val; rw [(idx_facts1 t).2]; omega

/-- Tile `t`'s labels are entries `16384·t + q` of the label row. -/
theorem blk2_apply (c : Dev nD) (t : Fin cfg0.N) (q : Fin 16384) :
    blk2 m c t (ix2 (0 : Fin 1) q) = (V m c main_v1 : IVec S1x1048576 32) (ix2 (0 : Fin 1) (row t q)) := by
  unfold blk2 iblk
  rw [View.read_apply]
  show V m c main_v1 _ = V m c main_v1 _
  refine congrArg (V m c main_v1) ?_
  funext d; apply Fin.ext
  match d with
  | ⟨0, _⟩ => show win0_2.index t 0 * 1 + 1 * 0 = 0; rw [(idx_facts2 t).1]
  | ⟨1, _⟩ => show win0_2.index t 1 * 16384 + 1 * q.val = t.val * 16384 + q.val; rw [(idx_facts2 t).2]; omega

/-- Every point reads the whole class table. -/
theorem blk3_apply (c : Dev nD) (t : Fin cfg0.N) (a : Fin 52) (j : Fin 7) :
    blk3 m c t (ix2 a j) = (V m c main_cst : FVec F S52x7 .f32) (ix2 a j) := by
  unfold blk3 iblk
  rw [View.read_apply]
  show V m c main_cst _ = V m c main_cst _
  refine congrArg (V m c main_cst) ?_
  funext d; apply Fin.ext
  match d with
  | ⟨0, _⟩ => show win0_3.index t 0 * 52 + 1 * a.val = a.val; rw [(idx_facts3 t).1]; omega
  | ⟨1, _⟩ => show win0_3.index t 1 * 7 + 1 * j.val = j.val; rw [(idx_facts3 t).2]; omega

/-- The label row: the action labels clamped below by 0 and above by 51, as one row. -/
theorem V_labels (c : Dev nD) : (V m c main_v1 : IVec S1x1048576 32)
    = shapeCast S1x1048576 (minsi (broadcastInDim S1048576 ![] bcast_S_S1048576 (constantI S_ 32 51#32))
        (maxsi (broadcastInDim S1048576 ![] bcast_S_S1048576 (constantI S_ 32 0#32)) (m ((c : Thread nD τ).loc main_arg3))))
        shapeCasts_S1048576_S1x1048576 := by
  dsimp only [V, V0]
  simp only [hostOps0, hostOps0_1, hostOps0_2, List.flatten_cons, List.flatten_nil, List.append_nil, List.cons_append, List.nil_append]
  after_results
  rfl

/-- The class table: the literal 52 × 7 words. -/
theorem V_table (c : Dev nD) : (V m c main_cst : FVec F S52x7 .f32) = fun i => FloatOps.ofBits .f32 (lit0 (S52x7.rowMajor i)) := by
  dsimp only [V, V0]
  simp only [hostOps0, hostOps0_1, hostOps0_2, List.flatten_cons, List.flatten_nil, List.append_nil, List.cons_append, List.nil_append]
  after_results
  rfl

end Cert.KernelIdeal.Blocks

end
-- ==== Proof.KPoint.lean ====
/-
  One grid point's arithmetic at the extended reals, over the blocks' entries.
-/
import proofs.«400140_j10694468567626_3_alg».proof.Proof.Gen.KernelIdeal.Skeleton
import proofs.«400140_j10694468567626_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Point

open Cert.KernelIdeal Cert.KernelIdeal.Gen Idealize.ShloMosaic Idealize.ShloMosaic.ValueIdx

/-- The class table: row `a` is the indicator of `a`'s body class. -/
def IsClassTable (x3 : Vec Ideal S52x7 .f32) : Prop :=
  ∀ (a : Fin 52) (j : Fin 7), x3 (ix2 a j) = if Cert.Spec.coarse a = j then (1 : EReal) else 0

/-! ## Real numbers inside the extended reals -/

/-- The word `0x3F000000` is one half. -/
theorem ofBits_half : Ideal.ofBits .f32 0x3F000000#32 = ((1 / 2 : ℝ) : EReal) := by
  simp [Ideal.ofBits, Ideal.ieee, -EReal.coe_mul]; norm_num

/-- The word `0x3F800000` is one. -/
theorem ofBits_one : Ideal.ofBits .f32 0x3F800000#32 = ((1 : ℝ) : EReal) := by
  simp [Ideal.ofBits, Ideal.ieee, -EReal.coe_mul]; norm_num

/-- A finite sum of real numbers, taken in the extended reals, is the real sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The logistic function through the hyperbolic tangent: `½ (1 + tanh (t / 2)) = 1 / (1 + e^(−t))`.
    With `u = e^(t/2)`, the left side is `½ (1 + (u − u⁻¹) / (u + u⁻¹)) = u / (u + u⁻¹)` and `e^(−t) = u⁻¹ · u⁻¹`. -/
theorem sigm_tanh (t : ℝ) : (1 / 2 : ℝ) * (1 + Real.tanh (t * (1 / 2))) = Cert.Spec.sigm t := by
  unfold Cert.Spec.sigm
  rw [Real.tanh_eq_sinh_div_cosh, Real.sinh_eq, Real.cosh_eq]
  have ha : 0 < Real.exp (t * (1 / 2)) := Real.exp_pos _
  have hb : Real.exp (-(t * (1 / 2))) = (Real.exp (t * (1 / 2)))⁻¹ := Real.exp_neg _
  have hc : Real.exp (-t) = (Real.exp (t * (1 / 2)))⁻¹ * (Real.exp (t * (1 / 2)))⁻¹ := by
    rw [← hb, ← Real.exp_add]; congr 1; ring
  rw [hb, hc]
  field_simp
  ring

/-- The gate arithmetic on an extended real that is a real number `t`: the logistic function of `t`. -/
theorem gate_coe (t : ℝ) :
    Ideal.ofBits .f32 0x3F000000#32 * (Ideal.ofBits .f32 0x3F800000#32 + Ideal.tanh ((t : EReal) * Ideal.ofBits .f32 0x3F000000#32))
      = ((Cert.Spec.sigm t : ℝ) : EReal) := by
  rw [ofBits_half, ofBits_one, ← EReal.coe_mul, Ideal.tanh_coe, ← EReal.coe_add, ← EReal.coe_mul, sigm_tanh]

/-! ## The body gates: row `j`, lane `q` -/

/-- The transposed body gates at `(j, q)`: the logistic function of the tile's body gate `j` of sample `q`. -/
theorem pay4_apply (x0 : FVec Ideal S16384x7 .f32) (xq : Fin 16384 → Fin 7 → ℝ)
    (h0 : ∀ (q : Fin 16384) (j : Fin 7), x0 (ix2 q j) = ((xq q j : ℝ) : EReal)) (j : Fin 7) (q : Fin 16384) :
    k0_pay4 (F := Ideal) x0 (ix2 j q) = ((Cert.Spec.sigm (xq q j) : ℝ) : EReal) := by
  have e : k0_pay4 (F := Ideal) x0 (ix2 j q)
      = Ideal.ofBits .f32 0x3F000000#32
          * (Ideal.ofBits .f32 0x3F800000#32 + Ideal.tanh (x0 (ix2 q j) * Ideal.ofBits .f32 0x3F000000#32)) := by
    unfold k0_pay4
    rw [← transpose_ix2_apply x0 transposes_S16384x7_p1_0_S7x16384 j q]
    rfl
  rw [e, h0, gate_coe]

/-! ## The class table times the body gates -/

/-- The product's dimension numbers: the table's columns against the gates' rows. -/
abbrev classDot := dot_S52x7_S7x16384_S52x16384_1_0_0_1_n_n

/-- The product onto a zero accumulator at `(a, q)`: the sum over the seven classes. -/
theorem classDot_read (x3 : FVec Ideal S52x7 .f32) (R : FVec Ideal S7x16384 .f32) (a : Fin 52) (q : Fin 16384) :
    matmul (F := Ideal) classDot none x3 R (constant (F := Ideal) S52x16384 .f32 0x00000000#32) (ix2 a q)
      = ∑ j : Fin 7, x3 (ix2 a j) * R (ix2 j q) := by
  refine (Ideal.matmul_constant_zero_apply classDot none x3 R (ix2 a q)).trans ?_
  rw [← Equiv.sum_comp (contrEquiv1 classDot 7 rfl rfl).symm]
  refine Finset.sum_congr rfl fun j _ => ?_
  have hk : (((contrEquiv1 classDot 7 rfl rfl).symm j) ⟨0, by decide⟩ : ℕ) = j.val :=
    contrEquiv1_symm_val classDot 7 rfl rfl j
  have el : classDot.lhsIdx (ix2 a q) ((contrEquiv1 classDot 7 rfl rfl).symm j) = ix2 a j :=
    funext fun c => Fin.ext (match c with | ⟨0, _⟩ => rfl | ⟨1, _⟩ => hk)
  have er : classDot.rhsIdx (ix2 a q) ((contrEquiv1 classDot 7 rfl rfl).symm j) = ix2 j q :=
    funext fun c => Fin.ext (match c with | ⟨0, _⟩ => hk | ⟨1, _⟩ => rfl)
  rw [el, er]

/-- Row `a` of the class table against seven real numbers picks the one of `a`'s class: the row is an indicator. -/
theorem table_sum (x3 : FVec Ideal S52x7 .f32)
    (h3 : ∀ (a : Fin 52) (j : Fin 7), x3 (ix2 a j) = if Cert.Spec.coarse a = j then (1 : EReal) else 0)
    (s : Fin 7 → ℝ) (a : Fin 52) :
    ∑ j : Fin 7, x3 (ix2 a j) * ((s j : ℝ) : EReal) = ((s (Cert.Spec.coarse a) : ℝ) : EReal) := by
  rw [Finset.sum_eq_single (Cert.Spec.coarse a)]
  · rw [h3, if_pos rfl, one_mul]
  · intro j _ hj
    rw [h3, if_neg (fun e => hj e.symm), zero_mul]
  · intro h; exact absurd (Finset.mem_univ _) h

/-! ## The logits: row `a`, lane `q` -/

/-- The logits at `(a, q)`: action `a`'s own gate plus its class's gate, for sample `q`. -/
theorem pay5_apply (x0 : FVec Ideal S16384x7 .f32) (x1 : FVec Ideal S16384x52 .f32) (x3 : FVec Ideal S52x7 .f32)
    (xq : Fin 16384 → Fin 7 → ℝ) (yq : Fin 16384 → Fin 52 → ℝ)
    (h0 : ∀ (q : Fin 16384) (j : Fin 7), x0 (ix2 q j) = ((xq q j : ℝ) : EReal))
    (h1 : ∀ (q : Fin 16384) (a : Fin 52), x1 (ix2 q a) = ((yq q a : ℝ) : EReal))
    (h3 : ∀ (a : Fin 52) (j : Fin 7), x3 (ix2 a j) = if Cert.Spec.coarse a = j then (1 : EReal) else 0)
    (a : Fin 52) (q : Fin 16384) :
    k0_pay5 (F := Ideal) x0 x1 x3 (ix2 a q) = ((Cert.Spec.logit (xq q) (yq q) a : ℝ) : EReal) := by
  have e : k0_pay5 (F := Ideal) x0 x1 x3 (ix2 a q)
      = Ideal.ofBits .f32 0x3F000000#32
          * (Ideal.ofBits .f32 0x3F800000#32 + Ideal.tanh (x1 (ix2 q a) * Ideal.ofBits .f32 0x3F000000#32))
        + matmul (F := Ideal) classDot none x3 (k0_pay4 (F := Ideal) x0)
            (constant (F := Ideal) S52x16384 .f32 0x00000000#32) (ix2 a q) := by
    unfold k0_pay5
    rw [← transpose_ix2_apply x1 transposes_S16384x52_p1_0_S52x16384 a q]
    rfl
  rw [e, h1, gate_coe, classDot_read]
  have e2 : ∀ j : Fin 7, x3 (ix2 a j) * k0_pay4 (F := Ideal) x0 (ix2 j q)
      = x3 (ix2 a j) * ((Cert.Spec.sigm (xq q j) : ℝ) : EReal) :=
    fun j => by rw [pay4_apply x0 xq h0]
  rw [Finset.sum_congr rfl fun j _ => e2 j, table_sum x3 h3 (fun j => Cert.Spec.sigm (xq q j)) a, ← EReal.coe_add]
  rfl

/-! ## Sums down the rows, read at a lane -/

/-- A sum down the fifty-two rows, read at lane `q`. -/
theorem colsum52 (v : FVec Ideal S52x16384 .f32) (hacc : (0x00000000#32 : BitVec 32) = 0x00000000#32) (q : Fin 16384) :
    multiReduction (F := Ideal) .add [0] S16384 v 0x00000000#32 reduces_S52x16384_S16384 (.inl rfl) hacc (ix1 q)
      = ∑ k : Fin 52, v (ix2 k q) := by
  refine (Ideal.multiReduction_add_single v _ reduces_S52x16384_S16384 (.inl rfl) hacc (ix1 q)).trans ?_
  show ∑ k : Fin 52, v (reduces_S52x16384_S16384.lift (ix1 q) k) = _
  refine Finset.sum_congr rfl fun k _ => congrArg v ?_
  exact funext fun c => Fin.ext (match c with | ⟨0, _⟩ => rfl | ⟨1, _⟩ => rfl)

/-- A sum down the seven rows, read at lane `q`. -/
theorem colsum7 (v : FVec Ideal S7x16384 .f32) (hacc : (0x00000000#32 : BitVec 32) = 0x00000000#32) (q : Fin 16384) :
    multiReduction (F := Ideal) .add [0] S16384 v 0x00000000#32 reduces_S7x16384_S16384 (.inl rfl) hacc (ix1 q)
      = ∑ k : Fin 7, v (ix2 k q) := by
  refine (Ideal.multiReduction_add_single v _ reduces_S7x16384_S16384 (.inl rfl) hacc (ix1 q)).trans ?_
  show ∑ k : Fin 7, v (reduces_S7x16384_S16384.lift (ix1 q) k) = _
  refine Finset.sum_congr rfl fun k _ => congrArg v ?_
  exact funext fun c => Fin.ext (match c with | ⟨0, _⟩ => rfl | ⟨1, _⟩ => rfl)

/-- The logarithm of a sum of two vectors, read at an index. -/
theorem log_add_read {s : Shape} (A B : FVec Ideal s .f32) (i : s.Idx) : log (addf A B) i = Ideal.log (A i + B i) := rfl

/-- The logarithm of the two column sums of exponentials, read at lane `q`. -/
theorem lse_read (P : FVec Ideal S52x16384 .f32) (Q : FVec Ideal S7x16384 .f32)
    (hP hQ : (0x00000000#32 : BitVec 32) = 0x00000000#32) (q : Fin 16384) :
    log (addf
        (shapeCast S1x16384
          (multiReduction (F := Ideal) .add [0] S16384 (exp P) 0x00000000#32 reduces_S52x16384_S16384 (.inl rfl) hP)
          shapeCasts_S16384_S1x16384)
        (shapeCast S1x16384
          (multiReduction (F := Ideal) .add [0] S16384 (exp Q) 0x00000000#32 reduces_S7x16384_S16384 (.inl rfl) hQ)
          shapeCasts_S16384_S1x16384)) (ix2 (0 : Fin 1) q)
      = Ideal.log ((∑ k : Fin 52, Ideal.exp (P (ix2 k q))) + ∑ k : Fin 7, Ideal.exp (Q (ix2 k q))) := by
  refine (log_add_read _ _ _).trans ?_
  rw [shapeCast_a_1a_apply, shapeCast_a_1a_apply, colsum52, colsum7]
  rfl

/-! ## The log-partition: lane `q` -/

/-- The log-partition row at lane `q`: the logarithm of sample `q`'s partition sum, which is positive. -/
theorem pay6_apply (x0 : FVec Ideal S16384x7 .f32) (x1 : FVec Ideal S16384x52 .f32) (x3 : FVec Ideal S52x7 .f32)
    (xq : Fin 16384 → Fin 7 → ℝ) (yq : Fin 16384 → Fin 52 → ℝ)
    (h0 : ∀ (q : Fin 16384) (j : Fin 7), x0 (ix2 q j) = ((xq q j : ℝ) : EReal))
    (h1 : ∀ (q : Fin 16384) (a : Fin 52), x1 (ix2 q a) = ((yq q a : ℝ) : EReal))
    (h3 : ∀ (a : Fin 52) (j : Fin 7), x3 (ix2 a j) = if Cert.Spec.coarse a = j then (1 : EReal) else 0)
    (q : Fin 16384) :
    k0_pay6 (F := Ideal) x0 x1 x3 (ix2 (0 : Fin 1) q) = ((Real.log (Cert.Spec.partition (xq q) (yq q)) : ℝ) : EReal) := by
  have e : k0_pay6 (F := Ideal) x0 x1 x3 (ix2 (0 : Fin 1) q)
      = Ideal.log ((∑ k : Fin 52, Ideal.exp (k0_pay5 (F := Ideal) x0 x1 x3 (ix2 k q)))
          + ∑ k : Fin 7, Ideal.exp (k0_pay4 (F := Ideal) x0 (ix2 k q))) := by
    unfold k0_pay6
    exact lse_read _ _ _ _ q
  rw [e]
  have e5 : ∀ k : Fin 52, Ideal.exp (k0_pay5 (F := Ideal) x0 x1 x3 (ix2 k q))
      = ((Real.exp (Cert.Spec.logit (xq q) (yq q) k) : ℝ) : EReal) :=
    fun k => by rw [pay5_apply x0 x1 x3 xq yq h0 h1 h3, Ideal.exp_coe]
  have e4 : ∀ k : Fin 7, Ideal.exp (k0_pay4 (F := Ideal) x0 (ix2 k q))
      = ((Real.exp (Cert.Spec.sigm (xq q k)) : ℝ) : EReal) :=
    fun k => by rw [pay4_apply x0 xq h0, Ideal.exp_coe]
  rw [Finset.sum_congr rfl fun k _ => e5 k, Finset.sum_congr rfl fun k _ => e4 k, coe_finset_sum, coe_finset_sum,
    ← EReal.coe_add]
  show Ideal.log ((Cert.Spec.partition (xq q) (yq q) : ℝ) : EReal) = _
  rw [Ideal.log_coe, if_neg (not_le.mpr (Cert.Spec.partition_pos _ _))]

/-! ## The label mask: row `a`, lane `q` -/

/-- A comparison of two integer vectors, read at an index. -/
theorem cmpi_read {s : Shape} (x y : IVec s 32) (i : s.Idx) : cmpi .eq x y i = IntOp.cmpi .eq (x i) (y i) := rfl

/-- The mask at `(a, q)` compares the row number `a` with lane `q`'s label word. -/
theorem pay7_apply (x2 : IVec S1x16384 32) (a : Fin 52) (q : Fin 16384) :
    k0_pay7 (F := Ideal) x2 (ix2 a q) = IntOp.cmpi .eq (BitVec.ofNat 32 a.val) (x2 (ix2 (0 : Fin 1) q)) := by
  unfold k0_pay7
  refine (cmpi_read _ _ _).trans ?_
  rw [iota_single_apply, broadcastTo_1b_ab_apply, shapeCast_self]

/-- Two actions' 32-bit words are equal exactly when the actions are: an action is below `52 < 2^32`. -/
theorem cmpi_label (a l : Fin 52) :
    IntOp.cmpi .eq (BitVec.ofNat 32 a.val) (BitVec.ofNat 32 l.val) = if a = l then 1#1 else 0#1 := by
  have e : IntOp.cmpi .eq (BitVec.ofNat 32 a.val) (BitVec.ofNat 32 l.val)
      = BitVec.ofBool (BitVec.ofNat 32 a.val == BitVec.ofNat 32 l.val) := rfl
  rw [e]
  by_cases h : a = l
  · subst h; rw [if_pos rfl, beq_self_eq_true]; rfl
  · have hne : BitVec.ofNat 32 a.val ≠ BitVec.ofNat 32 l.val := by
      intro e'
      apply h
      have h1 := congrArg BitVec.toNat e'
      simp only [BitVec.toNat_ofNat] at h1
      have := a.isLt
      have := l.isLt
      exact Fin.ext (by omega)
    rw [if_neg h, beq_eq_false_iff_ne.mpr hne]; rfl

/-- A sum of selected terms under a mask that is set at exactly one row `l` is row `l`'s term; the other rows give zero. -/
theorem select_sum (f : Fin 52 → EReal) (m : Fin 52 → BitVec 1) (l : Fin 52)
    (hm : ∀ a, m a = if a = l then 1#1 else 0#1) (z : EReal) (hz : z = 0) :
    ∑ a : Fin 52, Scalar.select (m a) (f a) z = f l := by
  rw [Finset.sum_eq_single l]
  · rw [hm, if_pos rfl, select_one]
  · intro a _ ha
    rw [hm, if_neg ha, select_zero, hz]
  · intro h; exact absurd (Finset.mem_univ _) h

/-! ## The accumulator -/

/-- The accumulator's update, read at lane `q`: what it held, plus the log-partition minus the masked column sum. -/
theorem acc_read (v26 : FVec Ideal S52x16384 .f32) (v33 : FVec Ideal S1x16384 .f32) (v36 : IVec S52x16384 1) (c : Ideal .f32)
    (xs : FVec Ideal S1x16384 .f32) (hacc : (0x00000000#32 : BitVec 32) = 0x00000000#32) (q : Fin 16384) :
    shapeCast S1x16384 (addf xs (subf v33 (shapeCast S1x16384
        (multiReduction (F := Ideal) .add [0] S16384 (select v36 v26 (broadcast S52x16384 c)) 0x00000000#32
          reduces_S52x16384_S16384 (.inl rfl) hacc)
        shapeCasts_S16384_S1x16384))) shapeCasts_S1x16384_S1x16384 (ix2 (0 : Fin 1) q)
      = xs (ix2 (0 : Fin 1) q)
        + (v33 (ix2 (0 : Fin 1) q) - ∑ a : Fin 52, Scalar.select (v36 (ix2 a q)) (v26 (ix2 a q)) c) := by
  rw [shapeCast_self]
  refine (addf_apply _ _ _).trans ?_
  rw [subf_apply, shapeCast_a_1a_apply, colsum52]
  rfl

/-- The accumulator after a point: what it held plus the tile's losses, lane by lane. -/
theorem tile_loss (x0 : Vec Ideal S16384x7 .f32) (x1 : Vec Ideal S16384x52 .f32) (x2 : Vec Ideal S1x16384 .i32)
    (x3 : Vec Ideal S52x7 .f32) (xs : Vec Ideal S1x16384 .f32)
    (xq : Fin 16384 → Fin 7 → ℝ) (yq : Fin 16384 → Fin 52 → ℝ) (lq : Fin 16384 → Fin 52) (acc : Fin 16384 → ℝ)
    (h0 : ∀ (q : Fin 16384) (j : Fin 7), x0 (ix2 q j) = ((xq q j : ℝ) : EReal))
    (h1 : ∀ (q : Fin 16384) (a : Fin 52), x1 (ix2 q a) = ((yq q a : ℝ) : EReal))
    (h2 : ∀ q : Fin 16384, x2 (ix2 (0 : Fin 1) q) = BitVec.ofNat 32 (lq q).val)
    (h3 : IsClassTable x3)
    (hs : ∀ q : Fin 16384, xs (ix2 (0 : Fin 1) q) = ((acc q : ℝ) : EReal)) (q : Fin 16384) :
    k0_pay1 (F := Ideal) (k0_pay5 x0 x1 x3) (k0_pay6 x0 x1 x3) (k0_pay7 (F := Ideal) x2) (Scalar.ofBits .f32 0x00000000#32) xs (ix2 (0 : Fin 1) q)
      = ((acc q + Cert.Spec.loss (xq q) (yq q) (lq q) : ℝ) : EReal) := by
  have e : k0_pay1 (F := Ideal) (k0_pay5 x0 x1 x3) (k0_pay6 x0 x1 x3) (k0_pay7 (F := Ideal) x2)
        (Scalar.ofBits .f32 0x00000000#32) xs (ix2 (0 : Fin 1) q)
      = xs (ix2 (0 : Fin 1) q) + (k0_pay6 (F := Ideal) x0 x1 x3 (ix2 (0 : Fin 1) q)
          - ∑ a : Fin 52, Scalar.select (k0_pay7 (F := Ideal) x2 (ix2 a q)) (k0_pay5 (F := Ideal) x0 x1 x3 (ix2 a q))
              (Scalar.ofBits (F := Ideal) .f32 0x00000000#32)) := by
    unfold k0_pay1
    exact acc_read _ _ _ _ xs _ q
  have hm : ∀ a : Fin 52, k0_pay7 (F := Ideal) x2 (ix2 a q) = if a = lq q then 1#1 else 0#1 :=
    fun a => by rw [pay7_apply, h2, cmpi_label]
  rw [e, hs, pay6_apply x0 x1 x3 xq yq h0 h1 h3,
    select_sum (fun a => k0_pay5 (F := Ideal) x0 x1 x3 (ix2 a q)) (fun a => k0_pay7 (F := Ideal) x2 (ix2 a q)) (lq q) hm
      (Scalar.ofBits (F := Ideal) .f32 0x00000000#32) Ideal.ofBits_zero_f32,
    pay5_apply x0 x1 x3 xq yq h0 h1 h3, ← EReal.coe_sub, ← EReal.coe_add]
  rfl

/-- The accumulator's reset value. -/
theorem zero_tile (q : Fin 16384) : k0_pay3 (F := Ideal) (ix2 (0 : Fin 1) q) = ((0 : ℝ) : EReal) := by
  have e : k0_pay3 (F := Ideal) (ix2 (0 : Fin 1) q)
      = shapeCast S1x16384 (broadcast S1x16384 (Ideal.ofBits .f32 0x00000000#32)) shapeCasts_S1x16384_S1x16384
          (ix2 (0 : Fin 1) q) := rfl
  rw [e, shapeCast_self, broadcast_apply, Ideal.ofBits_zero_f32, EReal.coe_zero]

/-! ## The chunk's total -/

/-- The sum over every lane of a row, written to every entry of an `[8, 128]` block: the reduction into a
    one-element shape is the sum over all of the source's indices, and those are the row's lanes. -/
theorem total_read (v : FVec Ideal S1x16384 .f32) (hacc : (0x00000000#32 : BitVec 32) = 0x00000000#32) (r : Fin 8) (l : Fin 128) :
    broadcast S8x128 (extractAt ![0, 0, 0] (shapeCast S1x1x1
        (multiReduction (F := Ideal) .add [1, 2] S1 (shapeCast S1x1x16384 v shapeCasts_S1x16384_S1x1x16384) 0x00000000#32
          reduces_S1x1x16384_S1 (.inl rfl) hacc) shapeCasts_S1_S1x1x1) inpos_S1x1x1_p0_0_0) (ix2 r l)
      = ∑ q : Fin 16384, v (ix2 (0 : Fin 1) q) := by
  refine (Ideal.multiReduction_add_total (shapeCast S1x1x16384 v shapeCasts_S1x16384_S1x1x16384) 0x00000000#32
    reduces_S1x1x16384_S1 (by decide) (.inl rfl) hacc _).trans ?_
  exact (Equiv.sum_comp (Shape.reshapeEquiv shapeCasts_S1x16384_S1x1x16384) v).trans
    ((sum_idx2 v).trans (Fin.sum_univ_one _))

/-- The chunk's total, written to every entry of the output block: the accumulator summed over its lanes. -/
theorem chunk_total (v : Vec Ideal S1x16384 .f32) (acc : Fin 16384 → ℝ)
    (hv : ∀ q : Fin 16384, v (ix2 (0 : Fin 1) q) = ((acc q : ℝ) : EReal)) (r : Fin 8) (l : Fin 128) :
    k0_pay2 (F := Ideal) v (ix2 r l) = ((∑ q : Fin 16384, acc q : ℝ) : EReal) := by
  have e : k0_pay2 (F := Ideal) v (ix2 r l) = ∑ q : Fin 16384, v (ix2 (0 : Fin 1) q) := by
    unfold k0_pay2
    exact total_read v _ r l
  rw [e, Finset.sum_congr rfl fun q _ => hv q, coe_finset_sum]

end Cert.KernelIdeal.Point

end
-- ==== Proof.KAcc.lean ====
/-
  The accumulator and the chunk totals as real numbers.
  After point `n` of a chunk the accumulator's lane `q` holds the sum of the losses of the samples at lane `q` of the
  chunk's tiles so far; after the chunk's last point the output block holds, in every entry, the sum of those over all lanes:
  the chunk's total loss.
-/
import proofs.«400140_j10694468567626_3_alg».proof.Proof.KBlocks
import proofs.«400140_j10694468567626_3_alg».proof.Proof.KPoint
import proofs.«400140_j10694468567626_3_alg».proof.Proof.Spec
import Idealize.ShloMosaic.Lib.IdealHost

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Pieces Cert.KernelIdeal.Points Cert.KernelIdeal.Blocks

variable (m : (ℓ : Loc nD τ sig) → Buf (Elt Ideal) ℓ) (c : Dev nD)
variable (xr : Fin 1048576 → Fin 7 → ℝ) (yr : Fin 1048576 → Fin 52 → ℝ) (lab : Fin 1048576 → Fin 52)

/-- The loss of sample number `r` (zero past the last sample). -/
def lossRow (r : ℕ) : ℝ := if h : r < 1048576 then Cert.Spec.loss (xr ⟨r, h⟩) (yr ⟨r, h⟩) (lab ⟨r, h⟩) else 0

/-- Lane `q`'s running sum after point `n`: the losses at lane `q` of the tiles of `n`'s chunk up to `n`. -/
def partialSum (n : ℕ) (q : Fin 16384) : ℝ :=
  ∑ k ∈ Finset.range (n % 32 + 1), lossRow xr yr lab ((n / 32 * 32 + k) * 16384 + q.val)

/-- The 52 × 7 literal words are the indicator of an action's body class. -/
theorem lit_class : ∀ (a : Fin 52) (j : Fin 7),
    lit0 ⟨a.val * 7 + j.val, by have := a.isLt; have := j.isLt; omega⟩ = if Cert.Spec.coarse a = j then 0x3F800000#32 else 0x00000000#32 := by
  decide

/-- Clamping a label that is already an action changes nothing. -/
theorem clamp_label : ∀ l : Fin 52, IntOp.minsi 51#32 (IntOp.maxsi 0#32 (BitVec.ofNat 32 l.val)) = BitVec.ofNat 32 l.val := by
  decide

/-- A sample inside the array has its own loss. -/
theorem lossRow_row (t : Fin cfg0.N) (q : Fin 16384) :
    lossRow xr yr lab (t.val * 16384 + q.val) = Cert.Spec.loss (xr (row t q)) (yr (row t q)) (lab (row t q)) := by
  unfold lossRow; rw [dif_pos (row t q).isLt]

/-- At a chunk's first point the running sum is the point's own loss. -/
theorem partialSum_first (n : ℕ) (q : Fin 16384) (h0 : n % 32 = 0) :
    partialSum xr yr lab n q = lossRow xr yr lab (n * 16384 + q.val) := by
  unfold partialSum
  rw [h0, Finset.sum_range_one]
  refine congrArg (lossRow xr yr lab) ?_
  omega

/-- At a later point it grows by the point's own loss. -/
theorem partialSum_later (n : ℕ) (q : Fin 16384) (h0 : ¬(n + 1) % 32 = 0) :
    partialSum xr yr lab (n + 1) q = partialSum xr yr lab n q + lossRow xr yr lab ((n + 1) * 16384 + q.val) := by
  unfold partialSum
  have e1 : (n + 1) % 32 = n % 32 + 1 := by omega
  have e2 : (n + 1) / 32 = n / 32 := by omega
  have e3 : (n / 32 * 32 + (n % 32 + 1)) * 16384 + q.val = (n + 1) * 16384 + q.val := by omega
  rw [e1, e2, Finset.sum_range_succ, e3]

/-- The total loss of chunk `p`: the running sums after its last point, over the lanes. -/
def chunkTotal (p : ℕ) : ℝ := ∑ q : Fin 16384, partialSum xr yr lab (p * 32 + 31) q

variable (hR : Cert.Spec.Reads (m ((c : Thread nD τ).loc main_arg0)) (m ((c : Thread nD τ).loc main_arg1))
  (m ((c : Thread nD τ).loc main_arg3)) xr yr lab)
include hR

theorem blk0_real (t : Fin cfg0.N) (q : Fin 16384) (j : Fin 7) : blk0 m c t (ix2 q j) = ((xr (row t q) j : ℝ) : EReal) := by
  rw [blk0_apply, V_main_arg0]; exact hR.body (row t q) j

theorem blk1_real (t : Fin cfg0.N) (q : Fin 16384) (a : Fin 52) : blk1 m c t (ix2 q a) = ((yr (row t q) a : ℝ) : EReal) := by
  rw [blk1_apply, V_main_arg1]; exact hR.action (row t q) a

theorem blk2_label (t : Fin cfg0.N) (q : Fin 16384) : blk2 m c t (ix2 (0 : Fin 1) q) = BitVec.ofNat 32 (lab (row t q)).val := by
  rw [blk2_apply, V_labels]
  refine (shapeCast_apply _ _ (ix2 (0 : Fin 1) (row t q)) (ix1 (row t q)) ?_).trans ?_
  · rw [Shape.rowMajor_val_one, Shape.rowMajor_val_two]; show (row t q).val = 0 * 1048576 + (row t q).val; omega
  · show IntOp.minsi 51#32 (IntOp.maxsi 0#32 (m ((c : Thread nD τ).loc main_arg3) (ix1 (row t q)))) = _
    rw [hR.label (row t q)]; exact clamp_label _

theorem blk3_table (t : Fin cfg0.N) : Cert.KernelIdeal.Point.IsClassTable (blk3 m c t) := by
  intro a j
  rw [blk3_apply, V_table]
  show Ideal.ofBits .f32 (lit0 (S52x7.rowMajor (ix2 a j))) = _
  have e : S52x7.rowMajor (ix2 a j) = ⟨a.val * 7 + j.val, by show _ < 364; have := a.isLt; have := j.isLt; omega⟩ :=
    Fin.ext (by rw [Shape.rowMajor_val_two]; rfl)
  rw [e]
  refine (congrArg (Ideal.ofBits .f32) (lit_class a j)).trans ?_
  by_cases hj : Cert.Spec.coarse a = j
  · rw [if_pos hj, if_pos hj]; exact Ideal.ofBits_one_f32
  · rw [if_neg hj, if_neg hj]; exact Ideal.ofBits_zero_f32

/-- THE ACCUMULATOR after point `n`: lane `q` holds the running sum of the losses at that lane. -/
theorem acc_value : ∀ (n : ℕ) (hn : n < cfg0.N) (q : Fin 16384),
    accAfter m c n hn (ix2 (0 : Fin 1) q) = ((partialSum xr yr lab n q : ℝ) : EReal)
  | 0, hn, q => by
    rw [acc_first m c ⟨0, hn⟩ rfl]
    refine (Cert.KernelIdeal.Point.tile_loss (blk0 m c ⟨0, hn⟩) (blk1 m c ⟨0, hn⟩) (blk2 m c ⟨0, hn⟩) (blk3 m c ⟨0, hn⟩) (k0_pay3 (F := Ideal))
      (fun q j => xr (row ⟨0, hn⟩ q) j) (fun q a => yr (row ⟨0, hn⟩ q) a) (fun q => lab (row ⟨0, hn⟩ q)) (fun _ => 0)
      (blk0_real m c xr yr lab hR ⟨0, hn⟩) (blk1_real m c xr yr lab hR ⟨0, hn⟩) (blk2_label m c xr yr lab hR ⟨0, hn⟩)
      (blk3_table m c xr yr lab hR ⟨0, hn⟩) Cert.KernelIdeal.Point.zero_tile q).trans ?_
    rw [partialSum_first xr yr lab 0 q rfl, ← lossRow_row xr yr lab ⟨0, hn⟩ q, zero_add]
  | n + 1, hn, q => by
    by_cases h0 : (n + 1) % 32 = 0
    · rw [acc_first m c ⟨n + 1, hn⟩ h0]
      refine (Cert.KernelIdeal.Point.tile_loss (blk0 m c ⟨n + 1, hn⟩) (blk1 m c ⟨n + 1, hn⟩) (blk2 m c ⟨n + 1, hn⟩) (blk3 m c ⟨n + 1, hn⟩) (k0_pay3 (F := Ideal))
        (fun q j => xr (row ⟨n + 1, hn⟩ q) j) (fun q a => yr (row ⟨n + 1, hn⟩ q) a) (fun q => lab (row ⟨n + 1, hn⟩ q)) (fun _ => 0)
        (blk0_real m c xr yr lab hR ⟨n + 1, hn⟩) (blk1_real m c xr yr lab hR ⟨n + 1, hn⟩) (blk2_label m c xr yr lab hR ⟨n + 1, hn⟩)
        (blk3_table m c xr yr lab hR ⟨n + 1, hn⟩) Cert.KernelIdeal.Point.zero_tile q).trans ?_
      rw [partialSum_first xr yr lab (n + 1) q h0, ← lossRow_row xr yr lab ⟨n + 1, hn⟩ q, zero_add]
    · rw [acc_later m c ⟨n + 1, hn⟩ h0]
      refine (Cert.KernelIdeal.Point.tile_loss (blk0 m c ⟨n + 1, hn⟩) (blk1 m c ⟨n + 1, hn⟩) (blk2 m c ⟨n + 1, hn⟩) (blk3 m c ⟨n + 1, hn⟩)
        (accAfter m c n (Nat.lt_of_succ_lt hn))
        (fun q j => xr (row ⟨n + 1, hn⟩ q) j) (fun q a => yr (row ⟨n + 1, hn⟩ q) a) (fun q => lab (row ⟨n + 1, hn⟩ q)) (fun q => partialSum xr yr lab n q)
        (blk0_real m c xr yr lab hR ⟨n + 1, hn⟩) (blk1_real m c xr yr lab hR ⟨n + 1, hn⟩) (blk2_label m c xr yr lab hR ⟨n + 1, hn⟩)
        (blk3_table m c xr yr lab hR ⟨n + 1, hn⟩) (acc_value n (Nat.lt_of_succ_lt hn)) q).trans ?_
      rw [partialSum_later xr yr lab n q h0, ← lossRow_row xr yr lab ⟨n + 1, hn⟩ q]

/-- THE OUTPUT BLOCK after a chunk's last point: the chunk's total, in every entry. -/
theorem out_value (t : Fin cfg0.N) (h31 : t.val % 32 = 31) (r : Fin 8) (l : Fin 128) :
    outAfter m c t.val t.isLt (ix2 r l) = ((chunkTotal xr yr lab (t.val / 32) : ℝ) : EReal) := by
  rw [out_last m c t h31]
  refine (Cert.KernelIdeal.Point.chunk_total (accAfter m c t.val t.isLt) (fun q => partialSum xr yr lab t.val q)
    (acc_value m c xr yr lab hR t.val t.isLt) r l).trans ?_
  have e : t.val / 32 * 32 + 31 = t.val := by omega
  unfold chunkTotal
  rw [e]

end Cert.KernelIdeal.Acc

end
-- ==== Proof.KFinal.lean ====
/-
  The output array after the region, and the kernel's result.
  The array is 16 × 128: chunk `p` owns rows `8p … 8p + 7`, written back once, after the chunk's last point, with the
  chunk's total in every entry. The host then reads entry (0, 0) of each chunk's block, adds the two, and divides by the
  number of samples.
-/
import proofs.«400140_j10694468567626_3_alg».proof.Proof.KAcc
import Idealize.ShloMosaic.Lib.IdealHost
import Idealize.ShloMosaic.Lib.ValueIdxRank1
import Idealize.ShloMosaic.Lib.StableHlo.Run

noncomputable section

open scoped BigOperators
open Idealize.ShloMosaic Idealize.ShloMosaic.TcCoe Idealize.SL.Sem Idealize.ShloMosaic.ValueIdx Idealize.ShloMosaic.StableHlo

namespace Cert.KernelIdeal.Final

open Cert.KernelIdeal Cert.KernelIdeal.Gen Cert.KernelIdeal.Pieces Cert.KernelIdeal.Points Cert.KernelIdeal.Blocks Cert.KernelIdeal.Acc

variable (m : (ℓ : Loc nD τ sig) → Buf (Elt Ideal) ℓ) (c : Dev nD)
variable (xr : Fin 1048576 → Fin 7 → ℝ) (yr : Fin 1048576 → Fin 52 → ℝ) (lab : Fin 1048576 → Fin 52)

/-- The output array: row `r` holds the total of chunk `r / 8`. -/
def outArr : FVec Ideal S16x128 .f32 := fun i => ((chunkTotal xr yr lab ((i 0).val / 8) : ℝ) : EReal)

/-- The output's printed index map over the grid: point `t` belongs to chunk `t / 32`. -/
theorem idx_facts4 : ∀ t : Fin cfg0.N, win0_4.index t (0 : Fin 2) = t.val / 32 ∧ win0_4.index t (1 : Fin 2) = 0 :=
  (by decide +kernel : ∀ t : Fin grid0.N, _)

variable (hR : Cert.Spec.Reads (m ((c : Thread nD τ).loc main_arg0)) (m ((c : Thread nD τ).loc main_arg1))
  (m ((c : Thread nD τ).loc main_arg3)) xr yr lab)
include hR

/-- What a chunk's last point writes back is its block of the output array. -/
theorem flushed4_eq (t : Fin cfg0.N) (hf : (cfg0.win 4).flush t = true) :
    (dats m 0 c).flushed 4 t = ((cfg0.win 4).blk t).view.read (Elt Ideal) (outArr xr yr lab) := by
  have h31 : t.val % 32 = 31 := (flush0_4 t).mp hf
  show (cfg0.win 4).cut (grid0.coords t) ((dats m 0 c).after 4 t) = _
  rw [after0_4]
  funext y
  rw [View.read_apply]
  have hy0 : (y 0).val < 8 := (y 0).isLt
  have hy1 : (y 1).val < 128 := (y 1).isLt
  have hx : (cfg0.win 4).xinj (grid0.coords t) y = ix2 (⟨(y 0).val, hy0⟩ : Fin 8) (⟨(y 1).val, hy1⟩ : Fin 128) := by
    funext a; apply Fin.ext
    match a with
    | ⟨0, _⟩ => rfl
    | ⟨1, _⟩ => rfl
  show outAfter m c t.val t.isLt ((cfg0.win 4).xinj (grid0.coords t) y) = _
  rw [hx]
  refine (out_value m c xr yr lab hR t h31 _ _).trans ?_
  unfold outArr
  have he : ((((cfg0.win 4).blk t).view.emb y) 0).val = win0_4.index t 0 * 8 + 1 * (y 0).val := rfl
  have hq : (win0_4.index t 0 * 8 + 1 * (y 0).val) / 8 = t.val / 32 := by rw [(idx_facts4 t).1]; omega
  rw [he, hq]
  rfl

omit hR in
/-- Every entry of the output array lies in the block of its chunk's last point. -/
theorem cover4 (i : S16x128.Idx) : ∃ t : Fin cfg0.N, (cfg0.win 4).flush t = true ∧ i ∈ ((cfg0.win 4).blk t).view.set := by
  have hi0 : (i 0).val < 16 := (i 0).isLt
  have hi1 : (i 1).val < 128 := (i 1).isLt
  have hN : cfg0.N = 64 := N_0
  let t : Fin cfg0.N := ⟨(i 0).val / 8 * 32 + 31, by rw [hN]; omega⟩
  have ht : t.val = (i 0).val / 8 * 32 + 31 := rfl
  refine ⟨t, (flush0_4 t).mpr (by rw [ht]; omega), ?_⟩
  show i ∈ ((View.whole main_v2).slice (win0_4.rect t)).set
  rw [View.set_slice_whole, Rect.mem_set_unit]
  intro a
  match a with
  | ⟨0, _⟩ =>
    show win0_4.index t 0 * 8 ≤ (i 0).val ∧ (i 0).val < win0_4.index t 0 * 8 + 8
    rw [(idx_facts4 t).1, ht]; omega
  | ⟨1, _⟩ =>
    show win0_4.index t 1 * 128 ≤ (i 1).val ∧ (i 1).val < win0_4.index t 1 * 128 + 128
    rw [(idx_facts4 t).2]; omega

/-- So the output array ends holding the chunks' totals. -/
theorem final4 : (dats m 0 c).arrAt 4 cfg0.N = outArr xr yr lab :=
  (dats m 0 c).arrAt_eq_of_cover 4 (outArr xr yr lab) (flushed4_eq m c xr yr lab hR) cover4

/-- What the host computes from the output array after the region: entry (0, 0) of each chunk's block, the two added,
    the sum divided by the number of samples. -/
def tailTerm {F : FTy → Type} [FloatOps F] (A : FVec F S16x128 .f32) : FVec F S_ .f32 :=
  Host.divf
    (Host.reduceAdd
      (shapeCast S2 (extractStridedSlice S2x1x1 ![0, 0, 0] (shapeCast S2x8x128 A shapeCasts_S16x128_S2x8x128)
        slices_S2x8x128_S2x1x1_0_0_0) shapeCasts_S2x1x1_S2)
      (constant S_ .f32 0x00000000#32) reducesTo_S2_S_d0 h_S_)
    (constant S_ .f32 0x49800000#32)

omit hR in
/-- The result buffer after the run is that term of the output array the region leaves. -/
theorem tail_eq : (Pipeline.afterTail₀ cfgs (dats m) 0 (V0 m) [hostOps1] c main_v7 : FVec Ideal S_ .f32)
    = tailTerm (F := Ideal) ((dats m 0 c).arrAt 4 cfg0.N) := by
  unfold Pipeline.afterTail₀
  show StableHlo.after hostOps1 _ (Proc.devRef .tc main_v7) = _
  after_results
  have hA := Pipeline.withArrays_arr spec0 launch0.win.arr_inj c (V0 m c) (fun w => (dats m 0 c).arrAt w (cfgs 0).N) 4
  rw [show Pipeline.withArrays (cfgs 0).spec c (V0 m c) (fun w => (dats m 0 c).arrAt w (cfgs 0).N) (Proc.devRef .tc main_v2)
      = (dats m 0 c).arrAt 4 (cfgs 0).N from hA]
  rfl

omit hR in
/-- Chunk `p`'s entry of the two-element array the host sums: entry (8p, 0) of the output array, the chunk's total. -/
theorem picked (p : Fin 2) :
    shapeCast S2 (extractStridedSlice S2x1x1 ![0, 0, 0] (shapeCast S2x8x128 (outArr xr yr lab) shapeCasts_S16x128_S2x8x128)
        slices_S2x8x128_S2x1x1_0_0_0) shapeCasts_S2x1x1_S2 (ix1 p)
      = ((chunkTotal xr yr lab p.val : ℝ) : EReal) := by
  have hp : p.val < 2 := p.isLt
  refine (shapeCast_apply _ _ (ix1 p) (ix3 p (0 : Fin 1) (0 : Fin 1)) ?_).trans ?_
  · rw [Shape.rowMajor_val_three, Shape.rowMajor_val_one]
    show (p.val * 1 + 0) * 1 + 0 = p.val
    omega
  refine (extractStridedSlice_apply _ _ _ (ix3 p (0 : Fin 1) (0 : Fin 1)) (ix3 p (0 : Fin 8) (0 : Fin 128)) ?_).trans ?_
  · intro a
    match a with
    | ⟨0, _⟩ => show p.val = 0 + p.val; omega
    | ⟨1, _⟩ => rfl
    | ⟨2, _⟩ => rfl
  refine (shapeCast_apply _ _ (ix3 p (0 : Fin 8) (0 : Fin 128)) (ix2 (⟨8 * p.val, by omega⟩ : Fin 16) (0 : Fin 128)) ?_).trans ?_
  · rw [Shape.rowMajor_val_two, Shape.rowMajor_val_three]
    show 8 * p.val * 128 + 0 = (p.val * 8 + 0) * 128 + 0
    omega
  unfold outArr
  show ((chunkTotal xr yr lab (8 * p.val / 8) : ℝ) : EReal) = _
  rw [show 8 * p.val / 8 = p.val by omega]

omit hR in
/-- THE KERNEL'S RESULT from the output array of chunk totals: their sum over the sample count. -/
theorem tailTerm_value (hT : chunkTotal xr yr lab 0 + chunkTotal xr yr lab 1 = Cert.Spec.total xr yr lab) :
    tailTerm (F := Ideal) (outArr xr yr lab) = Cert.Spec.result xr yr lab := by
  unfold tailTerm Cert.Spec.result
  refine congrArg (fun z : FVec Ideal S_ .f32 => Host.divf z (constant S_ .f32 0x49800000#32)) ?_
  funext j
  rw [hostReduceAdd_apply, Ideal.hostReduceAdd_total reducesTo_S2_S_d0 (fun b => b.elim0),
    ← Equiv.sum_comp (idxEquiv1 (n := 2)).symm, Fin.sum_univ_two]
  show constant (F := Ideal) S_ .f32 0x00000000#32 _ + (_ + _) = _
  rw [constant_apply, Ideal.ofBits_zero_f32, zero_add]
  refine (congrArg₂ (· + ·) (picked xr yr lab 0) (picked xr yr lab 1)).trans ?_
  rw [← EReal.coe_add]
  exact congrArg _ hT

end Cert.KernelIdeal.Final

end
-- ==== Proof.KTotal.lean ====
/-
  The two chunks' totals add up to the sum of the losses over all samples: sample `r` is lane `r % 16384` of tile
  `r / 16384`, and tile `T` is point `T % 32` of chunk `T / 32`.
-/
import proofs.«400140_j10694468567626_3_alg».proof.Proof.KAcc

noncomputable section

open scoped BigOperators

namespace Cert.KernelIdeal.Acc

/-- A sum over the first `a · b` naturals, cut into `a` consecutive runs of length `b`. -/
theorem sum_range_mul_runs (f : ℕ → ℝ) (a b : ℕ) :
    ∑ r ∈ Finset.range (a * b), f r = ∑ i ∈ Finset.range a, ∑ j ∈ Finset.range b, f (i * b + j) := by
  induction a with
  | zero => rw [Nat.zero_mul, Finset.sum_range_zero, Finset.sum_range_zero]
  | succ a ih => rw [Nat.succ_mul, Finset.sum_range_add, Finset.sum_range_succ, ih]

/-- The regrouping for any summand: two chunks of thirty-two tiles of `L` lanes, summed lane by lane within a chunk,
    are the first `2 · 32 · L` naturals. -/
theorem regroup (f : ℕ → ℝ) (L : ℕ) :
    (∑ q ∈ Finset.range L, ∑ k ∈ Finset.range 32, f ((0 * 32 + k) * L + q))
      + (∑ q ∈ Finset.range L, ∑ k ∈ Finset.range 32, f ((1 * 32 + k) * L + q))
      = ∑ r ∈ Finset.range (2 * 32 * L), f r := by
  rw [sum_range_mul_runs f (2 * 32) L, sum_range_mul_runs (fun T => ∑ j ∈ Finset.range L, f (T * L + j)) 2 32,
    Finset.sum_range_succ, Finset.sum_range_one, Finset.sum_comm, Finset.sum_comm (s := Finset.range L)]

/-- Regrouping the samples by chunk, lane and tile. -/
theorem chunks_total (xr : Fin 1048576 → Fin 7 → ℝ) (yr : Fin 1048576 → Fin 52 → ℝ) (lab : Fin 1048576 → Fin 52) :
    chunkTotal xr yr lab 0 + chunkTotal xr yr lab 1 = Cert.Spec.total xr yr lab := by
  have hc : ∀ p : ℕ, chunkTotal xr yr lab p
      = ∑ q ∈ Finset.range 16384, ∑ k ∈ Finset.range 32, lossRow xr yr lab ((p * 32 + k) * 16384 + q) := by
    intro p
    unfold chunkTotal partialSum
    have e1 : (p * 32 + 31) % 32 + 1 = 32 := by omega
    have e2 : (p * 32 + 31) / 32 * 32 = p * 32 := by omega
    rw [e1, e2]
    exact Fin.sum_univ_eq_sum_range (fun q => ∑ k ∈ Finset.range 32, lossRow xr yr lab ((p * 32 + k) * 16384 + q)) 16384
  have ht : Cert.Spec.total xr yr lab = ∑ r ∈ Finset.range 1048576, lossRow xr yr lab r := by
    unfold Cert.Spec.total
    rw [← Fin.sum_univ_eq_sum_range (lossRow xr yr lab) 1048576]
    refine Finset.sum_congr rfl fun b _ => ?_
    unfold lossRow
    rw [dif_pos b.isLt]
  have hn : 2 * 32 * 16384 = 1048576 := by norm_num
  rw [hc 0, hc 1, ht, ← hn]
  exact regroup (lossRow xr yr lab) 16384

end Cert.KernelIdeal.Acc

end
-- ==== Proof.KValue.lean ====
/-
  The idealized kernel's run, read: every execution ends with the result at the mean loss of the specification, the
  argument arrays unchanged.
-/
import proofs.«400140_j10694468567626_3_alg».proof.Proof.KFinal
import proofs.«400140_j10694468567626_3_alg».proof.Proof.KTotal

noncomputable section

open Idealize.ShloMosaic Idealize.ShloMosaic.TcCoe Idealize.SL.Sem

namespace Cert.KernelIdeal.KValue

open Cert.KernelIdeal Cert.KernelIdeal.Gen Cert.KernelIdeal.Final Cert.KernelIdeal.Acc

variable (m : (ℓ : Loc nD τ sig) → Buf (Elt Ideal) ℓ) (ρ : Dev nD → PrngReg)
variable (xr : Dev nD → Fin 1048576 → Fin 7 → ℝ) (yr : Dev nD → Fin 1048576 → Fin 52 → ℝ) (lab : Dev nD → Fin 1048576 → Fin 52)

/-- Where the argument arrays hold real gates and labels in range, the result buffer after the run holds the
    specification's result. -/
theorem result_eq (c : Dev nD)
    (hR : Cert.Spec.Reads (m ((c : Thread nD τ).loc main_arg0)) (m ((c : Thread nD τ).loc main_arg1))
      (m ((c : Thread nD τ).loc main_arg3)) (xr c) (yr c) (lab c)) :
    (Pipeline.afterTail₀ cfgs (dats m) 0 (V0 m) [hostOps1] c main_v7 : FVec Ideal S_ .f32)
      = Cert.Spec.result (xr c) (yr c) (lab c) :=
  (tail_eq m c).trans ((congrArg (tailTerm (F := Ideal)) (final4 m c (xr c) (yr c) (lab c) hR)).trans
    (tailTerm_value (xr c) (yr c) (lab c) (chunks_total (xr c) (yr c) (lab c))))

/-- THE RUN. -/
theorem run (hR : ∀ c : Dev nD, Cert.Spec.Reads (m ((c : Thread nD τ).loc main_arg0)) (m ((c : Thread nD τ).loc main_arg1))
      (m ((c : Thread nD τ).loc main_arg3)) (xr c) (yr c) (lab c)) :
    θ_run defs (onTc (τ := τ) (main (F := Ideal))) ⟨m, fun _ => 0, ρ⟩ fun r => ∀ c : Dev nD,
      r.2.mem ((c.tc : Thread nD τ).loc main_v7) = Cert.Spec.result (xr c) (yr c) (lab c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (result_eq m xr yr lab c (hR c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RTerm.lean ====
/-
  The reference's result as a pure function of its argument arrays, stage by stage, in the order the program computes it:
  the two gate arrays `1 / (1 + exp (−x))`, their concatenation along the feature axis transposed to states × samples,
  the 59 × 59 state table times it, its exponential (the joint weights), the column sums (the partition sums), the table's
  column `label + 7` (wrapped by 59 when negative) as a mask of positive entries, the masked column sums (the marginals),
  `−log (marginal / partition)` per sample, and its sum over the samples divided by their number.
-/
import proofs.«400140_j10694468567626_3_alg».proof.ReferenceIdeal
import proofs.«400140_j10694468567626_3_alg».proof.Proof.Gen.ReferenceIdeal

noncomputable section

namespace Cert.ReferenceIdeal.Term

open Cert.ReferenceIdeal Cert.ReferenceIdeal.Gen Idealize.ShloMosaic

variable {F : FTy → Type} [FloatOps F]

/-- The 59 × 59 state table: the identity plus, in each action's row, a one in its body class's column. -/
def table : FVec F S59x59 .f32 := fun i => FloatOps.ofBits .f32 (lit0 (S59x59.rowMajor i))

/-- The scalar one, and the scalar zero. -/
def one : FVec F S_ .f32 := constant S_ .f32 0x3F800000#32
def zero : FVec F S_ .f32 := constant S_ .f32 0x00000000#32

/-- The body gates `1 / (1 + exp (−x))`. -/
def gateBody (a0 : FVec F S1048576x7 .f32) : FVec F S1048576x7 .f32 :=
  Host.divf (broadcastInDim S1048576x7 ![] bcast_S_S1048576x7 one)
    (addf (broadcastInDim S1048576x7 ![] bcast_S_S1048576x7 one) (Host.exp (Host.negf a0)))

/-- The action gates `1 / (1 + exp (−y))`. -/
def gateAction (a1 : FVec F S1048576x52 .f32) : FVec F S1048576x52 .f32 :=
  Host.divf (broadcastInDim S1048576x52 ![] bcast_S_S1048576x52 one)
    (addf (broadcastInDim S1048576x52 ![] bcast_S_S1048576x52 one) (Host.exp (Host.negf a1)))

/-- The gates side by side, states × samples. -/
def gatesT (a0 : FVec F S1048576x7 .f32) (a1 : FVec F S1048576x52 .f32) : FVec F S59x1048576 .f32 :=
  transpose S59x1048576 [1, 0]
    (concatenate S1048576x59 1 [⟨S1048576x7, gateBody a0⟩, ⟨S1048576x52, gateAction a1⟩] concatenates_S1048576x7_S1048576x52_S1048576x59_d1)
    transposes_S1048576x59_S59x1048576_1_0

/-- The joint weights: the exponential of the table times the gates. -/
def joint (a0 : FVec F S1048576x7 .f32) (a1 : FVec F S1048576x52 .f32) : FVec F S59x1048576 .f32 :=
  Host.exp (Host.dotGeneral dot_S59x59_S59x1048576_S59x1048576_1_0_0_1_n_n none table (gatesT a0 a1))

/-- The partition sums: the joint weights summed over the states. -/
def partition (a0 : FVec F S1048576x7 .f32) (a1 : FVec F S1048576x52 .f32) : FVec F S1048576 .f32 :=
  Host.reduceAdd (joint a0 a1) zero reducesTo_S59x1048576_S1048576_d0 h_S_

/-- The label's column of the table: `label + 7`, plus 59 when that is negative. -/
def column (a3 : IVec S1048576 32) : IVec S1048576 32 :=
  select (cmpi .slt (addi a3 (broadcastInDim S1048576 ![] bcast_S_S1048576 (constantI S_ 32 7#32)))
      (broadcastInDim S1048576 ![] bcast_S_S1048576 (constantI S_ 32 0#32)))
    (addi (addi a3 (broadcastInDim S1048576 ![] bcast_S_S1048576 (constantI S_ 32 7#32)))
      (broadcastInDim S1048576 ![] bcast_S_S1048576 (constantI S_ 32 59#32)))
    (addi a3 (broadcastInDim S1048576 ![] bcast_S_S1048576 (constantI S_ 32 7#32)))

/-- The mask: the positive entries of the table's column at each sample's label. -/
def mask (a3 : IVec S1048576 32) : IVec S59x1048576 1 :=
  cmpf .ogt
    (Host.gather gather_S59x59_S1048576x1_S59x1048576_0_1_n_n_1_1_591 (table (F := F))
      (broadcastInDim S1048576x1 ![0] bcast_S1048576_S1048576x1_0 (column a3)))
    (broadcastInDim S59x1048576 ![] bcast_S_S59x1048576 (zero (F := F)))

/-- The marginals: the joint weights summed over the masked states. -/
def marginal (a0 : FVec F S1048576x7 .f32) (a1 : FVec F S1048576x52 .f32) (a3 : IVec S1048576 32) : FVec F S1048576 .f32 :=
  Host.reduceAdd (select (mask (F := F) a3) (joint a0 a1) (broadcastInDim S59x1048576 ![] bcast_S_S59x1048576 zero)) zero
    reducesTo_S59x1048576_S1048576_d0 h_S_

/-- The per-sample losses `−log (marginal / partition)`. -/
def losses (a0 : FVec F S1048576x7 .f32) (a1 : FVec F S1048576x52 .f32) (a3 : IVec S1048576 32) : FVec F S1048576 .f32 :=
  Host.negf (Host.log (Host.divf (marginal a0 a1 a3) (partition a0 a1)))

/-- The result: the losses summed over the samples, over the sample count. -/
def out (a0 : FVec F S1048576x7 .f32) (a1 : FVec F S1048576x52 .f32) (a3 : IVec S1048576 32) : FVec F S_ .f32 :=
  Host.divf (Host.reduceAdd (losses a0 a1 a3) zero reducesTo_S1048576_S_d0 h_S_) (constant S_ .f32 0x49800000#32)

end Cert.ReferenceIdeal.Term

end
-- ==== Proof.RRun.lean ====
/-
  The reference's run: every execution ends with the result buffer at the reference's pure term of the argument arrays.
-/
import proofs.«400140_j10694468567626_3_alg».proof.Proof.RTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's fifty operations, in order: the state table first; the call of the selection function is its one
    operation, the selection, written at the call's own result buffer. -/
abbrev ops : List (HloOp τ sig (Elt F)) :=
  [ nullary main_cst (fun i => FloatOps.ofBits .f32 (lit0 (S59x59.rowMajor i))),
    unary main_arg0 main_v0 (Host.negf : (⟨S1048576x7, .f32⟩ : BufTy).Contents (Elt F) → (⟨S1048576x7, .f32⟩ : BufTy).Contents (Elt F)),
    unary main_v0 main_v1 (Host.exp : (⟨S1048576x7, .f32⟩ : BufTy).Contents (Elt F) → (⟨S1048576x7, .f32⟩ : BufTy).Contents (Elt F)),
    nullary main_cst_0 (constant S_ .f32 0x3F800000#32),
    unary main_cst_0 main_v2 (broadcastInDim S1048576x7 ![] bcast_S_S1048576x7 : (⟨S_, .f32⟩ : BufTy).Contents (Elt F) → (⟨S1048576x7, .f32⟩ : BufTy).Contents (Elt F)),
    binary main_v2 main_v1 main_v3 (addf : (⟨S1048576x7, .f32⟩ : BufTy).Contents (Elt F) → (⟨S1048576x7, .f32⟩ : BufTy).Contents (Elt F) → (⟨S1048576x7, .f32⟩ : BufTy).Contents (Elt F)),
    nullary main_cst_1 (constant S_ .f32 0x3F800000#32),
    unary main_cst_1 main_v4 (broadcastInDim S1048576x7 ![] bcast_S_S1048576x7 : (⟨S_, .f32⟩ : BufTy).Contents (Elt F) → (⟨S1048576x7, .f32⟩ : BufTy).Contents (Elt F)),
    binary main_v4 main_v3 main_v5 (Host.divf : (⟨S1048576x7, .f32⟩ : BufTy).Contents (Elt F) → (⟨S1048576x7, .f32⟩ : BufTy).Contents (Elt F) → (⟨S1048576x7, .f32⟩ : BufTy).Contents (Elt F)),
    unary main_arg1 main_v6 (Host.negf : (⟨S1048576x52, .f32⟩ : BufTy).Contents (Elt F) → (⟨S1048576x52, .f32⟩ : BufTy).Contents (Elt F)),
    unary main_v6 main_v7 (Host.exp : (⟨S1048576x52, .f32⟩ : BufTy).Contents (Elt F) → (⟨S1048576x52, .f32⟩ : BufTy).Contents (Elt F)),
    nullary main_cst_2 (constant S_ .f32 0x3F800000#32),
    unary main_cst_2 main_v8 (broadcastInDim S1048576x52 ![] bcast_S_S1048576x52 : (⟨S_, .f32⟩ : BufTy).Contents (Elt F) → (⟨S1048576x52, .f32⟩ : BufTy).Contents (Elt F)),
    binary main_v8 main_v7 main_v9 (addf : (⟨S1048576x52, .f32⟩ : BufTy).Contents (Elt F) → (⟨S1048576x52, .f32⟩ : BufTy).Contents (Elt F) → (⟨S1048576x52, .f32⟩ : BufTy).Contents (Elt F)),
    nullary main_cst_3 (constant S_ .f32 0x3F800000#32),
    unary main_cst_3 main_v10 (broadcastInDim S1048576x52 ![] bcast_S_S1048576x52 : (⟨S_, .f32⟩ : BufTy).Contents (Elt F) → (⟨S1048576x52, .f32⟩ : BufTy).Contents (Elt F)),
    binary main_v10 main_v9 main_v11 (Host.divf : (⟨S1048576x52, .f32⟩ : BufTy).Contents (Elt F) → (⟨S1048576x52, .f32⟩ : BufTy).Contents (Elt F) → (⟨S1048576x52, .f32⟩ : BufTy).Contents (Elt F)),
    binary main_v5 main_v11 main_v12 ((fun a b => concatenate S1048576x59 1 [⟨S1048576x7, a⟩, ⟨S1048576x52, b⟩] concatenates_S1048576x7_S1048576x52_S1048576x59_d1) : (⟨S1048576x7, .f32⟩ : BufTy).Contents (Elt F) → (⟨S1048576x52, .f32⟩ : BufTy).Contents (Elt F) → (⟨S1048576x59, .f32⟩ : BufTy).Contents (Elt F)),
    unary main_v12 main_v13 ((transpose S59x1048576 [1, 0] · transposes_S1048576x59_S59x1048576_1_0) : (⟨S1048576x59, .f32⟩ : BufTy).Contents (Elt F) → (⟨S59x1048576, .f32⟩ : BufTy).Contents (Elt F)),
    binary main_cst main_v13 main_v14 ((fun l r => Host.dotGeneral dot_S59x59_S59x1048576_S59x1048576_1_0_0_1_n_n none l r) : (⟨S59x59, .f32⟩ : BufTy).Contents (Elt F) → (⟨S59x1048576, .f32⟩ : BufTy).Contents (Elt F) → (⟨S59x1048576, .f32⟩ : BufTy).Contents (Elt F)),
    unary main_v14 main_v15 (Host.exp : (⟨S59x1048576, .f32⟩ : BufTy).Contents (Elt F) → (⟨S59x1048576, .f32⟩ : BufTy).Contents (Elt F)),
    nullary main_cst_4 (constant S_ .f32 0x00000000#32),
    binary main_v15 main_cst_4 main_v16 ((fun x v => Host.reduceAdd x v reducesTo_S59x1048576_S1048576_d0 h_S_) : (⟨S59x1048576, .f32⟩ : BufTy).Contents (Elt F) → (⟨S_, .f32⟩ : BufTy).Contents (Elt F) → (⟨S1048576, .f32⟩ : BufTy).Contents (Elt F)),
    nullary main_c (constantI S_ 32 7#32),
    unary main_c main_v17 (broadcastInDim S1048576 ![] bcast_S_S1048576 : (⟨S_, .i32⟩ : BufTy).Contents (Elt F) → (⟨S1048576, .i32⟩ : BufTy).Contents (Elt F)),
    binary main_arg3 main_v17 main_v18 (addi : (⟨S1048576, .i32⟩ : BufTy).Contents (Elt F) → (⟨S1048576, .i32⟩ : BufTy).Contents (Elt F) → (⟨S1048576, .i32⟩ : BufTy).Contents (Elt F)),
    nullary main_c_5 (constantI S_ 32 0#32),
    unary main_c_5 main_v19 (broadcastInDim S1048576 ![] bcast_S_S1048576 : (⟨S_, .i32⟩ : BufTy).Contents (Elt F) → (⟨S1048576, .i32⟩ : BufTy).Contents (Elt F)),
    binary main_v18 main_v19 main_v20 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 59#32),
    unary main_c_6 main_v21 (broadcastInDim S1048576 ![] bcast_S_S1048576 : (⟨S_, .i32⟩ : BufTy).Contents (Elt F) → (⟨S1048576, .i32⟩ : BufTy).Contents (Elt F)),
    binary main_v18 main_v21 main_v22 (addi : (⟨S1048576, .i32⟩ : BufTy).Contents (Elt F) → (⟨S1048576, .i32⟩ : BufTy).Contents (Elt F) → (⟨S1048576, .i32⟩ : BufTy).Contents (Elt F)),
    ternary main_v20 main_v22 main_v18 main_v23 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v23 main_v24 (broadcastInDim S1048576x1 ![0] bcast_S1048576_S1048576x1_0 : (⟨S1048576, .i32⟩ : BufTy).Contents (Elt F) → (⟨S1048576x1, .i32⟩ : BufTy).Contents (Elt F)),
    binary main_cst main_v24 main_v25 ((fun x i => Host.gather gather_S59x59_S1048576x1_S59x1048576_0_1_n_n_1_1_591 x i) : (⟨S59x59, .f32⟩ : BufTy).Contents (Elt F) → (⟨S1048576x1, .i32⟩ : BufTy).Contents (Elt F) → (⟨S59x1048576, .f32⟩ : BufTy).Contents (Elt F)),
    nullary main_cst_7 (constant S_ .f32 0x00000000#32),
    unary main_cst_7 main_v26 (broadcastInDim S59x1048576 ![] bcast_S_S59x1048576 : (⟨S_, .f32⟩ : BufTy).Contents (Elt F) → (⟨S59x1048576, .f32⟩ : BufTy).Contents (Elt F)),
    binary main_v25 main_v26 main_v27 (cmpf .ogt : (⟨S59x1048576, .f32⟩ : BufTy).Contents (Elt F) → (⟨S59x1048576, .f32⟩ : BufTy).Contents (Elt F) → (⟨S59x1048576, .i1⟩ : BufTy).Contents (Elt F)),
    nullary main_cst_8 (constant S_ .f32 0x00000000#32),
    unary main_cst_8 main_v28 (broadcastInDim S59x1048576 ![] bcast_S_S59x1048576 : (⟨S_, .f32⟩ : BufTy).Contents (Elt F) → (⟨S59x1048576, .f32⟩ : BufTy).Contents (Elt F)),
    TRef.ternary (.of main_v27) (.of main_v15) (.of main_v28) main_call0.v0 select,
    nullary main_cst_9 (constant S_ .f32 0x00000000#32),
    binary main_v29 main_cst_9 main_v30 ((fun x v => Host.reduceAdd x v reducesTo_S59x1048576_S1048576_d0 h_S_) : (⟨S59x1048576, .f32⟩ : BufTy).Contents (Elt F) → (⟨S_, .f32⟩ : BufTy).Contents (Elt F) → (⟨S1048576, .f32⟩ : BufTy).Contents (Elt F)),
    binary main_v30 main_v16 main_v31 (Host.divf : (⟨S1048576, .f32⟩ : BufTy).Contents (Elt F) → (⟨S1048576, .f32⟩ : BufTy).Contents (Elt F) → (⟨S1048576, .f32⟩ : BufTy).Contents (Elt F)),
    unary main_v31 main_v32 (Host.log : (⟨S1048576, .f32⟩ : BufTy).Contents (Elt F) → (⟨S1048576, .f32⟩ : BufTy).Contents (Elt F)),
    unary main_v32 main_v33 (Host.negf : (⟨S1048576, .f32⟩ : BufTy).Contents (Elt F) → (⟨S1048576, .f32⟩ : BufTy).Contents (Elt F)),
    nullary main_cst_10 (constant S_ .f32 0x00000000#32),
    binary main_v33 main_cst_10 main_v34 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    nullary main_cst_11 (constant S_ .f32 0x49800000#32),
    binary main_v34 main_cst_11 main_v35 (Host.divf : (⟨S_, .f32⟩ : BufTy).Contents (Elt F) → (⟨S_, .f32⟩ : BufTy).Contents (Elt F) → (⟨S_, .f32⟩ : BufTy).Contents (Elt F)) ]

-- the chain of fifty sequenced steps is deeper than the default recursion bound
set_option maxRecDepth 2048 in
/-- The reference is that straight line: with the selection function's definition unfolded at its call, both sides
    are one chain of steps once sequencing is re-associated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., binary_bufs_sub .., unary_bufs_sub .., nullary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., ternary_bufs_sub .., nullary_bufs_sub ..,
    binary_bufs_sub .., binary_bufs_sub .., unary_bufs_sub .., unary_bufs_sub .., nullary_bufs_sub .., binary_bufs_sub ..,
    nullary_bufs_sub .., binary_bufs_sub ..⟩

attribute [local irreducible] Host.reduceAdd Host.gather concatenate transpose in
set_option maxRecDepth 8192 in
set_option maxHeartbeats 800000 in
/-- The fold at the result buffer is the pure term: each operation's result at its own buffer is its function's value
    at its operands' contents, and at any other buffer what was there; composed along the fifty operations this is the
    term's definitions unfolded. The state table is the first operation's literal, the selection's typed references
    carry contents along identities, and the two gate arrays are the operands of the concatenation, inside its list of
    shape-indexed pairs. The reductions, the gather, the concatenation and the transposition are never opened: the
    equation does not look inside them. -/
theorem out_eq (V : Valuation τ sig (Elt F)) :
    after ops V (main_v35 : DevRef τ sig)
      = Term.out (V (main_arg0 : DevRef τ sig)) (V (main_arg1 : DevRef τ sig)) (V (main_arg3 : DevRef τ sig)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  simp only [Term.out, Term.losses, Term.marginal, Term.mask, Term.column, Term.partition, Term.joint, Term.gatesT,
    Term.gateAction, Term.gateBody, Term.zero, Term.one, Term.table]
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, from any memory with zero counters: every weakly fair execution of the reference terminates with its
    result at the pure term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Cert.ReferenceIdeal.Term.out (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v35).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RTable.lean ====
/-
  The 59 × 59 state table entry by entry, and the mask gathered from its columns.
  Rows 0 … 6 (the body states) are unit rows; row `a + 7` (action `a`) has a one on the diagonal and a one in the column of
  `a`'s body class; so column `a + 7` has its only nonzero entry on the diagonal.
-/
import proofs.«400140_j10694468567626_3_alg».proof.Proof.RTerm
import proofs.«400140_j10694468567626_3_alg».proof.Proof.Spec
import Idealize.ShloMosaic.Lib.IdealHost
import Idealize.ShloMosaic.Lib.StableHlo.Predicate

noncomputable section

open scoped BigOperators

namespace Cert.ReferenceIdeal.Table

open Cert.ReferenceIdeal Cert.ReferenceIdeal.Gen Idealize.ShloMosaic Idealize.ShloMosaic.ValueIdx

/-- State `j` of the fifty-nine, for a body class `j`. -/
abbrev bodyState (j : Fin 7) : Fin 59 := ⟨j.val, by omega⟩
/-- State `a + 7` of the fifty-nine, for an action `a`. -/
abbrev actionState (a : Fin 52) : Fin 59 := ⟨a.val + 7, by omega⟩

/-- The body class of an action, on naturals. -/
def cls (a : Nat) : Nat :=
  if a ≤ 4 then 0 else if a ≤ 10 then 1 else if a ≤ 23 then 2 else if a ≤ 31 then 3
  else if a ≤ 37 then 4 else if a ≤ 47 then 5 else 6

/-- It is the body class of the specification. -/
theorem cls_coarse : ∀ a : Fin 52, cls a.val = (Cert.Spec.coarse a).val := by decide

/-- A body class is one of the seven. -/
theorem cls_le (n : Nat) : cls n ≤ 6 := by
  unfold cls; split_ifs <;> omega

/-- The table's words, all 59 × 59 of them: the word of one on the diagonal and, in an action's row, in its body class's
    column; the zero word elsewhere. -/
theorem word : ∀ i k : Fin 59,
    lit0t (i.val * 59 + k.val) = if (k = i ∨ (7 ≤ i.val ∧ k.val = cls (i.val - 7))) then 0x3F800000#32 else 0x00000000#32 := by
  decide +kernel

/-- The table entry by entry, as extended reals. -/
theorem table_apply (i k : Fin 59) :
    Cert.ReferenceIdeal.Term.table (F := Ideal) (ix2 i k)
      = if (k = i ∨ (7 ≤ i.val ∧ k.val = cls (i.val - 7))) then (1 : EReal) else 0 := by
  have hv : (S59x59.rowMajor (ix2 i k)).val = i.val * 59 + k.val := by
    rw [Shape.rowMajor_val_two]; rfl
  have hw : lit0 (S59x59.rowMajor (ix2 i k)) = lit0t (i.val * 59 + k.val) := by
    rw [← hv]
  show Ideal.ofBits .f32 (lit0 (S59x59.rowMajor (ix2 i k))) = _
  rw [hw, word i k]
  split
  · exact Ideal.ofBits_one_f32
  · exact Ideal.ofBits_zero_f32

/-- A body state's row of the table is a unit row: the weighted sum picks the state's own entry. -/
theorem row_body (j : Fin 7) (g : Fin 59 → EReal) :
    ∑ k : Fin 59, Cert.ReferenceIdeal.Term.table (F := Ideal) (ix2 (bodyState j) k) * g k = g (bodyState j) := by
  rw [Finset.sum_eq_single (bodyState j)]
  · rw [table_apply, if_pos (Or.inl rfl), one_mul]
  · intro k _ hk
    rw [table_apply, if_neg, zero_mul]
    rintro (h | ⟨h, _⟩)
    · exact hk h
    · have := j.isLt; simp only [bodyState] at h; omega
  · intro h; exact absurd (Finset.mem_univ _) h

/-- An action state's row has two ones: its own column and its body class's. -/
theorem row_action (a : Fin 52) (g : Fin 59 → EReal) :
    ∑ k : Fin 59, Cert.ReferenceIdeal.Term.table (F := Ideal) (ix2 (actionState a) k) * g k
      = g (actionState a) + g (bodyState (Cert.Spec.coarse a)) := by
  have hne : actionState a ≠ bodyState (Cert.Spec.coarse a) := by
    intro h
    have := congrArg Fin.val h
    have := (Cert.Spec.coarse a).isLt
    simp only [actionState, bodyState] at *
    omega
  rw [Finset.sum_eq_add (actionState a) (bodyState (Cert.Spec.coarse a)) hne]
  · rw [table_apply, if_pos (Or.inl rfl), one_mul, table_apply, if_pos, one_mul]
    refine Or.inr ⟨by simp only [actionState]; omega, ?_⟩
    show (Cert.Spec.coarse a).val = cls (a.val + 7 - 7)
    rw [Nat.add_sub_cancel, cls_coarse]
  · intro k _ hk
    rw [table_apply, if_neg, zero_mul]
    rintro (h | ⟨_, h⟩)
    · exact hk.1 h
    · refine hk.2 (Fin.ext ?_)
      show k.val = (Cert.Spec.coarse a).val
      rw [h, ← cls_coarse]
      show cls (a.val + 7 - 7) = cls a.val
      rw [Nat.add_sub_cancel]
  · intro h; exact absurd (Finset.mem_univ _) h
  · intro h; exact absurd (Finset.mem_univ _) h

/-- The column gather read at state `i` and sample `b`: the operand at row `i` and at the column the sample's start index
    names, read signed and clamped into 0 … 58. -/
theorem gather_col_apply {α : Type} {w : Nat} (x : S59x59.Idx → α) (idx : IVec S1048576x1 w) (i : Fin 59) (b : Fin 1048576) :
    Host.gather gather_S59x59_S1048576x1_S59x1048576_0_1_n_n_1_1_591 x idx (ix2 i b)
      = x (ix2 i ⟨min (idx (ix2 b (0 : Fin 1))).toInt.toNat 58, by omega⟩) := by
  unfold Host.gather
  congr 1
  funext a
  refine Fin.ext ?_
  match a with
  | ⟨0, _⟩ =>
    show gather_S59x59_S1048576x1_S59x1048576_0_1_n_n_1_1_591.start (ix2 i b) idx 0
      + gather_S59x59_S1048576x1_S59x1048576_0_1_n_n_1_1_591.batchCoord (ix2 i b) 0
      + gather_S59x59_S1048576x1_S59x1048576_0_1_n_n_1_1_591.offCoord (ix2 i b) 0 = i.val
    rw [GatherDims.batchCoord_eq_zero _ _ _ List.not_mem_nil]
    unfold GatherDims.start
    rw [dif_neg (show (0 : Fin 2) ∉ gather_S59x59_S1048576x1_S59x1048576_0_1_n_n_1_1_591.startIndexMap by decide)]
    simp only [Nat.add_zero, Nat.zero_add]
    rfl
  | ⟨1, _⟩ =>
    show gather_S59x59_S1048576x1_S59x1048576_0_1_n_n_1_1_591.start (ix2 i b) idx 1
      + gather_S59x59_S1048576x1_S59x1048576_0_1_n_n_1_1_591.batchCoord (ix2 i b) 1
      + gather_S59x59_S1048576x1_S59x1048576_0_1_n_n_1_1_591.offCoord (ix2 i b) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S59x59_S1048576x1_S59x1048576_0_1_n_n_1_1_591.startIndexMap from List.mem_singleton.mpr rfl)]
    have hsi : gather_S59x59_S1048576x1_S59x1048576_0_1_n_n_1_1_591.siIdx (ix2 i b)
        ⟨List.idxOf (1 : Fin 2) gather_S59x59_S1048576x1_S59x1048576_0_1_n_n_1_1_591.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl

/-- A vector laid out as a one-column array reads, at row `b`, the vector at `b`. -/
theorem start_apply (v : IVec S1048576 32) (b : Fin 1048576) :
    broadcastInDim S1048576x1 ![0] bcast_S1048576_S1048576x1_0 v (ix2 b (0 : Fin 1)) = v (ix1 b) := by
  unfold broadcastInDim
  congr 1
  funext a
  obtain rfl : a = 0 := Subsingleton.elim _ _
  refine Fin.ext ?_
  rw [dif_neg (by decide)]
  rfl

/-- Where the label is an action `l`, the column is `l + 7`: it is not negative, so nothing is added. -/
theorem column_apply (a3 : IVec S1048576 32) (b : Fin 1048576) (l : Fin 52) (h : a3 (ix1 b) = BitVec.ofNat 32 l.val) :
    Cert.ReferenceIdeal.Term.column a3 (ix1 b) = BitVec.ofNat 32 (l.val + 7) := by
  have key : ∀ l : Fin 52, Scalar.select (IntOp.cmpi .slt (IntOp.addi (BitVec.ofNat 32 l.val) 7#32) 0#32)
      (IntOp.addi (IntOp.addi (BitVec.ofNat 32 l.val) 7#32) 59#32) (IntOp.addi (BitVec.ofNat 32 l.val) 7#32)
        = BitVec.ofNat 32 (l.val + 7) := by decide
  show Scalar.select (IntOp.cmpi .slt (IntOp.addi (a3 (ix1 b)) 7#32) 0#32)
    (IntOp.addi (IntOp.addi (a3 (ix1 b)) 7#32) 59#32) (IntOp.addi (a3 (ix1 b)) 7#32) = _
  rw [h]; exact key l

/-- Where every label is an action, the mask at state `i` and sample `b` says whether `i` is the labelled action's state. -/
theorem mask_apply (a3 : IVec S1048576 32) (lab : Fin 1048576 → Fin 52)
    (hl : ∀ b : Fin 1048576, a3 (ix1 b) = BitVec.ofNat 32 (lab b).val) (i : Fin 59) (b : Fin 1048576) :
    Cert.ReferenceIdeal.Term.mask (F := Ideal) a3 (ix2 i b) = if i = actionState (lab b) then 1#1 else 0#1 := by
  have hs : (broadcastInDim S1048576x1 ![0] bcast_S1048576_S1048576x1_0 (Cert.ReferenceIdeal.Term.column a3)) (ix2 b (0 : Fin 1))
      = BitVec.ofNat 32 ((lab b).val + 7) := (start_apply _ b).trans (column_apply a3 b (lab b) (hl b))
  have hclamp : min (BitVec.ofNat 32 ((lab b).val + 7)).toInt.toNat 58 = (lab b).val + 7 := by
    have := (lab b).isLt
    rw [StableHlo.Predicate.toInt_ofNat_small _ (by omega)]
    simp only [Int.toNat_natCast]
    omega
  show FloatOps.cmpf .ogt (Host.gather gather_S59x59_S1048576x1_S59x1048576_0_1_n_n_1_1_591 (Cert.ReferenceIdeal.Term.table (F := Ideal))
      (broadcastInDim S1048576x1 ![0] bcast_S1048576_S1048576x1_0 (Cert.ReferenceIdeal.Term.column a3)) (ix2 i b))
    (Ideal.ofBits .f32 0x00000000#32) = _
  have hidx : (⟨min ((broadcastInDim S1048576x1 ![0] bcast_S1048576_S1048576x1_0 (Cert.ReferenceIdeal.Term.column a3)) (ix2 b (0 : Fin 1))).toInt.toNat 58,
      by omega⟩ : Fin 59) = actionState (lab b) := Fin.ext (by
    show min _ 58 = (lab b).val + 7
    rw [hs]; exact hclamp)
  rw [gather_col_apply, hidx, table_apply, Ideal.cmpf_def, Ideal.ofBits_zero_f32]
  by_cases hi : i = actionState (lab b)
  · rw [if_pos hi, if_pos (Or.inl hi.symm)]
    simp [Ideal.cmp]
  · rw [if_neg hi, if_neg]
    · simp [Ideal.cmp]
    · rintro (h | ⟨_, h⟩)
      · exact hi h.symm
      · have := cls_le (i.val - 7)
        simp only [actionState] at h
        omega

end Cert.ReferenceIdeal.Table

end
-- ==== Proof.RValue.lean ====
/-
  The reference's term at the extended reals is the mean loss of the specification.

  Stage by stage, at a sample `b`: each gate array reads the logistic function of its argument; the transposed
  concatenation reads the body gates on the first seven states and the action gates on the other fifty-two; the table's
  rows turn the product into the body gate at a body state and into the action's logit at an action state; the column
  sum of the exponentials is the partition sum; the mask keeps the labelled action's state alone, so the masked column
  sum is `exp (logit l)`; and `−log (exp (logit l) / Z) = log Z − logit l`. The mean is the sum over the samples
  divided by the same constant on both sides.
-/
import proofs.«400140_j10694468567626_3_alg».proof.Proof.RTerm
import proofs.«400140_j10694468567626_3_alg».proof.Proof.RTable
import proofs.«400140_j10694468567626_3_alg».proof.Proof.Spec
import Idealize.ShloMosaic.PureOps.Ideal.Laws
import Idealize.ShloMosaic.Lib.Pipeline.Value
import Idealize.ShloMosaic.Lib.ValueLayout
import Idealize.ShloMosaic.Lib.IdealHost
import Idealize.ShloMosaic.Lib.ValueIdxRank1
import Idealize.ShloMosaic.Lib.StackMember

noncomputable section

open scoped BigOperators

namespace Cert.ReferenceIdeal.RefValue

open Cert.ReferenceIdeal Cert.ReferenceIdeal.Gen Idealize.ShloMosaic Idealize.ShloMosaic.ValueIdx

/-! ## Real arithmetic at the extended reals -/

/-- The quotient of two reals, the divisor not zero. -/
theorem div_coe_coe (x y : ℝ) (hy : y ≠ 0) : Ideal.div (x : EReal) (y : EReal) = ((x / y : ℝ) : EReal) := by
  rw [Ideal.div_coe hy, ← EReal.coe_mul, _root_.mul_one_div]

/-- A finite sum of reals. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The gate `1 / (1 + exp (−t))` of a real `t` is the logistic function of `t`. -/
theorem gate_coe (t : ℝ) :
    Ideal.div (Ideal.ofBits .f32 0x3F800000#32) (Ideal.ofBits .f32 0x3F800000#32 + Ideal.exp (-(t : EReal)))
      = ((Cert.Spec.sigm t : ℝ) : EReal) := by
  have hne : (1 + Real.exp (-t) : ℝ) ≠ 0 := by positivity
  rw [Ideal.ofBits_one_f32, ← EReal.coe_neg, Ideal.exp_coe, ← EReal.coe_one, ← EReal.coe_add, div_coe_coe _ _ hne]
  rfl

/-- The host's negation and logarithm at an index. -/
theorem hostNegf_apply {s : Shape} {φ : FTy} (x : FVec Ideal s φ) (i : s.Idx) : Host.negf x i = -(x i) := rfl
theorem hostLog_apply {s : Shape} {φ : FTy} (x : FVec Ideal s φ) (i : s.Idx) : Host.log x i = Ideal.log (x i) := rfl

/-- The fifty-nine states are the seven body states and the fifty-two action states. -/
theorem sum_states (f : Fin 59 → EReal) :
    ∑ k : Fin 59, f k = ∑ j : Fin 7, f (Table.bodyState j) + ∑ a : Fin 52, f (Table.actionState a) := by
  refine (Fin.sum_univ_add (a := 7) (b := 52) f).trans ?_
  refine congrArg₂ (· + ·) rfl (Finset.sum_congr rfl fun a _ => congrArg f (Fin.ext ?_))
  show 7 + a.val = a.val + 7
  omega

/-! ## The gates -/

section Stages

variable (a0 : FVec Ideal S1048576x7 .f32) (a1 : FVec Ideal S1048576x52 .f32) (a3 : IVec S1048576 32)
  (xr : Fin 1048576 → Fin 7 → ℝ) (yr : Fin 1048576 → Fin 52 → ℝ) (lab : Fin 1048576 → Fin 52)

/-- The body gate of sample `b` and class `j` is the logistic function of the body argument. -/
theorem gateBody_apply (h : Cert.Spec.Reads a0 a1 a3 xr yr lab) (b : Fin 1048576) (j : Fin 7) :
    Term.gateBody (F := Ideal) a0 (ix2 b j) = ((Cert.Spec.sigm (xr b j) : ℝ) : EReal) := by
  have e : Term.gateBody (F := Ideal) a0 (ix2 b j)
      = Ideal.div (Ideal.ofBits .f32 0x3F800000#32) (Ideal.ofBits .f32 0x3F800000#32 + Ideal.exp (-(a0 (ix2 b j)))) := rfl
  rw [e, h.body, gate_coe]

/-- The action gate of sample `b` and action `a` is the logistic function of the action argument. -/
theorem gateAction_apply (h : Cert.Spec.Reads a0 a1 a3 xr yr lab) (b : Fin 1048576) (a : Fin 52) :
    Term.gateAction (F := Ideal) a1 (ix2 b a) = ((Cert.Spec.sigm (yr b a) : ℝ) : EReal) := by
  have e : Term.gateAction (F := Ideal) a1 (ix2 b a)
      = Ideal.div (Ideal.ofBits .f32 0x3F800000#32) (Ideal.ofBits .f32 0x3F800000#32 + Ideal.exp (-(a1 (ix2 b a)))) := rfl
  rw [e, h.action, gate_coe]

/-- At a body state the transposed concatenation reads the body gate. -/
theorem gatesT_body (j : Fin 7) (b : Fin 1048576) :
    Term.gatesT (F := Ideal) a0 a1 (ix2 (Table.bodyState j) b) = Term.gateBody (F := Ideal) a0 (ix2 b j) := by
  unfold Term.gatesT
  rw [transpose_ix2_apply]
  exact concatenate_pair_apply_left (t := S1048576x59) (s₁ := S1048576x7) (s₂ := S1048576x52) (1 : Fin 2) _ _ _ _ rfl (ix2 b j)
    (fun c => match c with | ⟨0, _⟩ => rfl | ⟨1, _⟩ => rfl)

/-- At an action state the transposed concatenation reads the action gate. -/
theorem gatesT_action (a : Fin 52) (b : Fin 1048576) :
    Term.gatesT (F := Ideal) a0 a1 (ix2 (Table.actionState a) b) = Term.gateAction (F := Ideal) a1 (ix2 b a) := by
  unfold Term.gatesT
  rw [transpose_ix2_apply]
  refine concatenate_pair_apply_right (t := S1048576x59) (s₁ := S1048576x7) (s₂ := S1048576x52) (1 : Fin 2) _ _ _ _ rfl rfl (ix2 b a) ?_ ?_
  · intro c hc
    match c, hc with
    | ⟨0, _⟩, _ => rfl
    | ⟨1, _⟩, hc => exact absurd rfl hc
  · show a.val + 7 = a.val + 7
    rfl

/-! ## The joint weights -/

/-- The table times the gates at state `i` and sample `b`: the row's weighted sum of the sample's gates. -/
theorem joint_apply (i : Fin 59) (b : Fin 1048576) :
    Term.joint (F := Ideal) a0 a1 (ix2 i b)
      = Ideal.exp (∑ k : Fin 59, Term.table (F := Ideal) (ix2 i k) * Term.gatesT (F := Ideal) a0 a1 (ix2 k b)) := by
  show Ideal.exp (Host.dotGeneral (DotDims.plain 59 59 1048576) none (Term.table (F := Ideal))
    (Term.gatesT (F := Ideal) a0 a1) (ix2 i b)) = _
  rw [StackMember.dotGeneral_plain_apply]

/-- At a body state the joint weight is the exponential of the body gate. -/
theorem joint_body (h : Cert.Spec.Reads a0 a1 a3 xr yr lab) (j : Fin 7) (b : Fin 1048576) :
    Term.joint (F := Ideal) a0 a1 (ix2 (Table.bodyState j) b) = ((Real.exp (Cert.Spec.sigm (xr b j)) : ℝ) : EReal) := by
  rw [joint_apply]
  refine (congrArg Ideal.exp (Table.row_body j fun k => Term.gatesT (F := Ideal) a0 a1 (ix2 k b))).trans ?_
  show Ideal.exp (Term.gatesT (F := Ideal) a0 a1 (ix2 (Table.bodyState j) b)) = _
  rw [gatesT_body, gateBody_apply a0 a1 a3 xr yr lab h, Ideal.exp_coe]

/-- At an action state the joint weight is the exponential of the action's logit. -/
theorem joint_action (h : Cert.Spec.Reads a0 a1 a3 xr yr lab) (a : Fin 52) (b : Fin 1048576) :
    Term.joint (F := Ideal) a0 a1 (ix2 (Table.actionState a) b)
      = ((Real.exp (Cert.Spec.logit (xr b) (yr b) a) : ℝ) : EReal) := by
  rw [joint_apply]
  refine (congrArg Ideal.exp (Table.row_action a fun k => Term.gatesT (F := Ideal) a0 a1 (ix2 k b))).trans ?_
  show Ideal.exp (Term.gatesT (F := Ideal) a0 a1 (ix2 (Table.actionState a) b)
    + Term.gatesT (F := Ideal) a0 a1 (ix2 (Table.bodyState (Cert.Spec.coarse a)) b)) = _
  rw [gatesT_action, gatesT_body, gateAction_apply a0 a1 a3 xr yr lab h, gateBody_apply a0 a1 a3 xr yr lab h,
    ← EReal.coe_add, Ideal.exp_coe]
  rfl

/-! ## Column sums -/

/-- A sum over the states of a states × samples array, at sample `b`: the sum of the column. -/
theorem colsum_apply (x : FVec Ideal S59x1048576 .f32) (b : Fin 1048576) :
    Host.reduceAdd (F := Ideal) x Term.zero reducesTo_S59x1048576_S1048576_d0 h_S_ (ix1 b) = ∑ k : Fin 59, x (ix2 k b) := by
  have hR : S59x1048576.Reduces [0] S1048576 := by decide
  rw [hostReduceAdd_apply, Ideal.hostReduceAdd_single _ hR]
  have hz : Term.zero (F := Ideal) (Shape.Idx.first h_S_) = 0 := Ideal.ofBits_zero_f32
  rw [hz, zero_add]
  refine Finset.sum_congr rfl fun k _ => congrArg x (funext fun c => Fin.ext ?_)
  match c with
  | ⟨0, _⟩ => rfl
  | ⟨1, _⟩ => rfl

/-- The partition sum of sample `b`. -/
theorem partition_apply (h : Cert.Spec.Reads a0 a1 a3 xr yr lab) (b : Fin 1048576) :
    Term.partition (F := Ideal) a0 a1 (ix1 b) = ((Cert.Spec.partition (xr b) (yr b) : ℝ) : EReal) := by
  unfold Term.partition
  rw [colsum_apply, sum_states]
  rw [Finset.sum_congr rfl fun j _ => joint_body a0 a1 a3 xr yr lab h j b,
    Finset.sum_congr rfl fun a _ => joint_action a0 a1 a3 xr yr lab h a b, ← coe_sum, ← coe_sum, ← EReal.coe_add, add_comm]
  rfl

/-! ## The marginal and the loss -/

/-- The masked column sum of sample `b` keeps the labelled action's state alone. -/
theorem marginal_apply (h : Cert.Spec.Reads a0 a1 a3 xr yr lab) (b : Fin 1048576) :
    Term.marginal (F := Ideal) a0 a1 a3 (ix1 b)
      = ((Real.exp (Cert.Spec.logit (xr b) (yr b) (lab b)) : ℝ) : EReal) := by
  unfold Term.marginal
  rw [colsum_apply]
  have e : ∀ k : Fin 59,
      select (Term.mask (F := Ideal) a3) (Term.joint (F := Ideal) a0 a1)
          (broadcastInDim S59x1048576 ![] bcast_S_S59x1048576 (Term.zero (F := Ideal))) (ix2 k b)
        = if k = Table.actionState (lab b) then Term.joint (F := Ideal) a0 a1 (ix2 k b) else 0 := by
    intro k
    rw [select_apply, Table.mask_apply a3 lab h.label k b]
    by_cases hk : k = Table.actionState (lab b)
    · rw [if_pos hk, if_pos hk, select_one]
    · rw [if_neg hk, if_neg hk, select_zero]
      exact Ideal.ofBits_zero_f32
  rw [Finset.sum_congr rfl fun k _ => e k, Finset.sum_ite_eq', if_pos (Finset.mem_univ _),
    joint_action a0 a1 a3 xr yr lab h]

end Stages

/-- Sample `b`'s entry of the reference's loss array is the specification's loss of that sample. -/
theorem losses_apply (a0 : FVec Ideal S1048576x7 .f32) (a1 : FVec Ideal S1048576x52 .f32) (a3 : IVec S1048576 32)
    (xr : Fin 1048576 → Fin 7 → ℝ) (yr : Fin 1048576 → Fin 52 → ℝ) (lab : Fin 1048576 → Fin 52)
    (h : Cert.Spec.Reads a0 a1 a3 xr yr lab) (b : Fin 1048576) :
    Cert.ReferenceIdeal.Term.losses (F := Ideal) a0 a1 a3 (ix1 b) = ((Cert.Spec.loss (xr b) (yr b) (lab b) : ℝ) : EReal) := by
  have hZ : 0 < Cert.Spec.partition (xr b) (yr b) := Cert.Spec.partition_pos _ _
  have hE : 0 < Real.exp (Cert.Spec.logit (xr b) (yr b) (lab b)) := Real.exp_pos _
  unfold Term.losses
  rw [hostNegf_apply, hostLog_apply, hostDivf_apply, marginal_apply a0 a1 a3 xr yr lab h, partition_apply a0 a1 a3 xr yr lab h, div_coe_coe _ _ hZ.ne', Ideal.log_coe,
    if_neg (not_le.2 (div_pos hE hZ)), ← EReal.coe_neg, Real.log_div hE.ne' hZ.ne', Real.log_exp]
  unfold Cert.Spec.loss
  rw [neg_sub]

/-- The reference's result is the specification's. -/
theorem out_eq (a0 : FVec Ideal S1048576x7 .f32) (a1 : FVec Ideal S1048576x52 .f32) (a3 : IVec S1048576 32)
    (xr : Fin 1048576 → Fin 7 → ℝ) (yr : Fin 1048576 → Fin 52 → ℝ) (lab : Fin 1048576 → Fin 52)
    (h : Cert.Spec.Reads a0 a1 a3 xr yr lab) :
    Cert.ReferenceIdeal.Term.out (F := Ideal) a0 a1 a3 = Cert.Spec.result xr yr lab := by
  have hsum : Host.reduceAdd (F := Ideal) (Term.losses (F := Ideal) a0 a1 a3) Term.zero reducesTo_S1048576_S_d0 h_S_
      = fun _ => ((Cert.Spec.total xr yr lab : ℝ) : EReal) := by
    funext i
    rw [hostReduceAdd_apply, Ideal.hostReduceAdd_total _ (fun c => c.elim0)]
    have hz : Term.zero (F := Ideal) (Shape.Idx.first h_S_) = 0 := Ideal.ofBits_zero_f32
    rw [hz, zero_add]
    refine (Equiv.sum_comp (idxEquiv1 (n := 1048576)).symm (Term.losses (F := Ideal) a0 a1 a3)).symm.trans ?_
    unfold Cert.Spec.total
    rw [coe_sum]
    exact Finset.sum_congr rfl fun b _ => losses_apply a0 a1 a3 xr yr lab h b
  unfold Term.out Cert.Spec.result
  rw [hsum]

end Cert.ReferenceIdeal.RefValue

end
-- ==== Proof.lean ====
/-
  The certificate's claim.

  Both programs compute the mean, over 1048576 samples, of the negative log-likelihood of a sample's labelled action under
  a two-level model: seven body gates and fifty-two action gates through the logistic function, an action's logit its own
  gate plus its body class's gate, the partition sum over the fifty-two action states and the seven body states
  (Proof/Spec.lean). The reference builds the 59 × 59 state table, multiplies it with the gates, exponentiates, and divides
  the labelled state's weight by the column sum before the logarithm; the kernel never builds the table: it gathers the body
  gate of an action's class with a 52 × 7 indicator matrix, takes the labelled logit directly, and accumulates
  `log Z − logit` lane by lane over thirty-two tiles per chunk, two chunks, summing the lanes at a chunk's end. Over the
  real numbers the two agree: `−log (e^u / Z) = log Z − u`, `0.5 · (1 + tanh (t / 2)) = 1 / (1 + e^(−t))`, a unit row of
  the table picks one gate and an action's row picks two, the labelled column has one nonzero entry, and a finite sum may
  be regrouped. The agreement needs the gates to be real numbers (the stated precondition) and every action label to lie
  in 0 … 51 (the added one): outside that range the reference reads another column of its table while the kernel clamps.

  The frames of the two kernel programs are the generated ones; the reference's frame is its run with the result dropped.
-/
import proofs.«400140_j10694468567626_3_alg».proof.Defs
import proofs.«400140_j10694468567626_3_alg».proof.Proof.Gen.Kernel
import proofs.«400140_j10694468567626_3_alg».proof.Proof.Gen.Kernel.Skeleton
import proofs.«400140_j10694468567626_3_alg».proof.Proof.Gen.Kernel.Launch
import proofs.«400140_j10694468567626_3_alg».proof.Proof.Gen.Kernel.Points
import proofs.«400140_j10694468567626_3_alg».proof.Proof.Gen.Kernel.Frame
import proofs.«400140_j10694468567626_3_alg».proof.Proof.Gen.KernelIdeal
import proofs.«400140_j10694468567626_3_alg».proof.Proof.Gen.KernelIdeal.Skeleton
import proofs.«400140_j10694468567626_3_alg».proof.Proof.Gen.KernelIdeal.Launch
import proofs.«400140_j10694468567626_3_alg».proof.Proof.Gen.KernelIdeal.Points
import proofs.«400140_j10694468567626_3_alg».proof.Proof.Gen.KernelIdeal.Frame
import proofs.«400140_j10694468567626_3_alg».proof.Proof.Gen.ReferenceIdeal
import proofs.«400140_j10694468567626_3_alg».proof.Proof.Gen.Pre_finite_inputs
import proofs.«400140_j10694468567626_3_alg».proof.Proof.Pre
import proofs.«400140_j10694468567626_3_alg».proof.Proof.KValue
import proofs.«400140_j10694468567626_3_alg».proof.Proof.RRun
import proofs.«400140_j10694468567626_3_alg».proof.Proof.RValue
import Idealize.ShloMosaic.Adequacy
import Idealize.ShloMosaic.Init

noncomputable section

namespace Cert.Proof

open Idealize.ShloMosaic Idealize.SL.Sem

/-- The reference runs and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- From memories agreeing on the arguments, under the precondition, both idealized programs end at the specification's
    result: the kernel by its run read through the accumulation, the reference by its run read stage by stage. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hdec : ∀ c : Dev Cert.KernelIdeal.nD, ∃ (xr : Fin 1048576 → Fin 7 → ℝ) (yr : Fin 1048576 → Fin 52 → ℝ)
      (lab : Fin 1048576 → Fin 52),
      Cert.Spec.Reads (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) xr yr lab :=
    fun c => Cert.Pre_finite_inputs.Decode.reads_of_pre _ _ _ _ (hpre c)
  choose xr yr lab hR using hdec
  refine ⟨fun c => Cert.Spec.result (xr c) (yr c) (lab c), Cert.KernelIdeal.KValue.run m ρ xr yr lab hR, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.2]
  exact Cert.ReferenceIdeal.RefValue.out_eq _ _ _ _ _ _ (hR c)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
